-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S512 .f32) (main_arg10 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x2048 .f32) (main_arg5 : FVec F S2048 .f32) (main_arg6 : FVec F S2048 .f32) (main_arg7 : FVec F S2048 .f32) (main_arg8 : FVec F S2048 .f32) (main_arg9 : FVec F S512 .f32) (main_arg10 : FVec F S512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x2048 .f32) (main_arg4 : FVec F S512x2048 .f32) (main_arg5 : FVec F S2048 .f32) (main_arg6 : FVec F S2048 .f32) (main_arg7 : FVec F S2048 .f32) (main_arg8 : FVec F S2048 .f32) (main_arg9 : FVec F S512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S1x2048 : Shape := ⟨2, ![1, 2048]⟩
abbrev S1x512 : Shape := ⟨2, ![1, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S512, .f32⟩
  | .hbm, ⟨10, _⟩ => ⟨S512, .f32⟩
  | .hbm, ⟨11, _⟩ => ⟨S512x2048, .bf16⟩
  | .hbm, ⟨12, _⟩ => ⟨S512x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x512, .f32⟩
  | .hbm, ⟨18, _⟩ => ⟨S1x512, .f32⟩
  | .hbm, ⟨19, _⟩ => ⟨S16384x512, .f32⟩
  | .hbm, ⟨20, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S2048_S1x2048 : S2048.ShapeCasts S1x2048
  shapeCasts_S512_S1x512 : S512.ShapeCasts S1x512
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x512_S256 : S256x512.Reduces [1] S256
  broadcasts_S256x1_S256x512 : S256x1.Broadcasts S256x512
  broadcasts_S1x512_S256x512 : S1x512.Broadcasts S256x512
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S16384x512.size a
  hwx0_11 : ∀ i : grid0.Coords, EltTy.bits .f32 = 32 ∨ (Rect.block (s := S16384x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S16384x512.size a
  hwx0_12 : ∀ i : grid0.Coords, EltTy.bits .f32 = 32 ∨ (Rect.block (s := S16384x512) S256x512.size (cc0_transform_12 i) (hinb0_12 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S256x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x512 : Shape := ⟨2, ![1, 512]⟩

abbrev nBuf : Space → Nat
  | .hbm => 135
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S512x2048, .f32⟩
  | 4 => ⟨S512x2048, .f32⟩
  | 5 => ⟨S2048, .f32⟩
  | 6 => ⟨S2048, .f32⟩
  | 7 => ⟨S2048, .f32⟩
  | 8 => ⟨S2048, .f32⟩
  | 9 => ⟨S512, .f32⟩
  | 10 => ⟨S512, .f32⟩
  | 11 => ⟨S16384x2048, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S16384x2048, .f32⟩
  | 19 => ⟨S16384x2048, .f32⟩
  | 20 => ⟨S16384x2048, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x2048, .f32⟩
  | 28 => ⟨S16384x2048, .f32⟩
  | 29 => ⟨S_, .f32⟩
  | 30 => ⟨S16384x1, .f32⟩
  | 31 => ⟨S16384x1, .f32⟩
  | 32 => ⟨S16384x1, .f32⟩
  | 33 => ⟨S16384x2048, .f32⟩
  | 34 => ⟨S16384x2048, .f32⟩
  | 35 => ⟨S1x2048, .f32⟩
  | 36 => ⟨S16384x2048, .f32⟩
  | 37 => ⟨S16384x2048, .f32⟩
  | 38 => ⟨S1x2048, .f32⟩
  | 39 => ⟨S16384x2048, .f32⟩
  | 40 => ⟨S16384x2048, .f32⟩
  | 41 => ⟨S16384x2048, .f32⟩
  | 42 => ⟨S_, .f32⟩
  | 43 => ⟨S16384, .f32⟩
  | 44 => ⟨S16384x1, .f32⟩
  | 45 => ⟨S_, .f32⟩
  | 46 => ⟨S16384x1, .f32⟩
  | 47 => ⟨S16384x1, .f32⟩
  | 48 => ⟨S16384x2048, .f32⟩
  | 49 => ⟨S16384x2048, .f32⟩
  | 50 => ⟨S16384x2048, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x2048, .f32⟩
  | 58 => ⟨S16384x2048, .f32⟩
  | 59 => ⟨S_, .f32⟩
  | 60 => ⟨S16384x1, .f32⟩
  | 61 => ⟨S16384x1, .f32⟩
  | 62 => ⟨S16384x1, .f32⟩
  | 63 => ⟨S16384x2048, .f32⟩
  | 64 => ⟨S16384x2048, .f32⟩
  | 65 => ⟨S1x2048, .f32⟩
  | 66 => ⟨S16384x2048, .f32⟩
  | 67 => ⟨S16384x2048, .f32⟩
  | 68 => ⟨S1x2048, .f32⟩
  | 69 => ⟨S16384x2048, .f32⟩
  | 70 => ⟨S16384x2048, .f32⟩
  | 71 => ⟨S16384x2048, .f32⟩
  | 72 => ⟨S16384x512, .f32⟩
  | 73 => ⟨S16384x512, .f32⟩
  | 74 => ⟨S16384x512, .f32⟩
  | 75 => ⟨S16384x512, .f32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S_, .f32⟩
  | 82 => ⟨S16384x512, .f32⟩
  | 83 => ⟨S16384x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S16384x512, .f32⟩
  | 103 => ⟨S16384x512, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x512, .f32⟩
  | 111 => ⟨S16384x512, .f32⟩
  | 112 => ⟨S16384x512, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x512, .f32⟩
  | 120 => ⟨S16384x512, .f32⟩
  | 121 => ⟨S_, .f32⟩
  | 122 => ⟨S16384x1, .f32⟩
  | 123 => ⟨S16384x1, .f32⟩
  | 124 => ⟨S16384x1, .f32⟩
  | 125 => ⟨S16384x512, .f32⟩
  | 126 => ⟨S16384x512, .f32⟩
  | 127 => ⟨S1x512, .f32⟩
  | _ => ⟨S16384x512, .f32⟩

abbrev hbmTy0_1 (i : Nat) : BufTy := match i % 128 with
  | 0 => ⟨S16384x512, .f32⟩
  | 1 => ⟨S16384x512, .f32⟩
  | 2 => ⟨S1x512, .f32⟩
  | 3 => ⟨S16384x512, .f32⟩
  | 4 => ⟨S16384x512, .f32⟩
  | 5 => ⟨S16384x512, .f32⟩
  | 6 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  reducesTo_S16384x512_S16384_d1 : S16384x512.ReducesTo [1] S16384
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.Spec.lean ====
/-
  A LayerNorm-LSTM cell, one batch row at a time, on the extended reals.

  For a row `x` of the input and a row `h` of the previous hidden state the four gate pre-activations are
  `LN(x · W_ih) + LN(h · W_hh)`, a vector of 2048 entries cut into four runs of 512 (input, forget, cell, output);
  the new cell state is `σ(f) · c_prev + σ(i) · tanh(g)` and the new hidden state `σ(o) · tanh(LN(c_new))`.

  LayerNorm of a row `z` of `N` entries subtracts the row's mean, scales by the inverse standard deviation
  (the biased variance plus a positive `ε`, under a square root), multiplies by `γ` and adds `β`. It is written
  here twice: with the reciprocal square root as a factor (`lnRsqrt`), and with a quotient by the square root
  (`lnSqrt`). The two agree at EVERY extended real: a square `d · d` is never negative (`⊥ · ⊥ = ⊤`), so the
  variance is `≥ 0`, the radicand `variance + ε` is `> 0` (a positive real or `⊤`), and for `v > 0`
  `a · rsqrt v = a / sqrt v` (`mul_rsqrt_eq_div_sqrt`; at `v = ⊤` both sides are `a · 0`).
-/
import Idealize.ShloMosaic.PureOps.Ideal
import Idealize.ShloMosaic.Lib.ValueIdx

noncomputable section

open scoped BigOperators

namespace Cert.LstmSpec

open Idealize.ShloMosaic Idealize.ShloMosaic.ValueIdx

/-! ## LayerNorm of one row -/

/-- The mean of a row: its sum over a count. -/
def rowMean {N : ℕ} (cnt : EReal) (z : Fin N → EReal) : EReal := Ideal.div (∑ k, z k) cnt

/-- The biased variance of a row: the mean of the squared deviations from the row's mean. -/
def rowVar {N : ℕ} (cnt : EReal) (z : Fin N → EReal) : EReal :=
  Ideal.div (∑ k, (z k - rowMean cnt z) * (z k - rowMean cnt z)) cnt

/-- LayerNorm with the reciprocal square root as a factor. -/
def lnRsqrt {N : ℕ} (cnt eps : EReal) (z γ β : Fin N → EReal) (n : Fin N) : EReal :=
  (z n - rowMean cnt z) * Ideal.rsqrt (rowVar cnt z + eps) * γ n + β n

/-- LayerNorm with a quotient by the square root. -/
def lnSqrt {N : ℕ} (cnt eps : EReal) (z γ β : Fin N → EReal) (n : Fin N) : EReal :=
  Ideal.div (z n - rowMean cnt z) (Ideal.sqrt (rowVar cnt z + eps)) * γ n + β n

/-- A square is never negative on the extended reals: `⊥ · ⊥ = ⊤ · ⊤ = ⊤`. -/
theorem mul_self_nonneg (x : EReal) : 0 ≤ x * x := by
  induction x using EReal.rec with
  | bot => simp
  | top => simp
  | coe r => rw [← EReal.coe_mul]; exact EReal.coe_nonneg.mpr (_root_.mul_self_nonneg r)

/-- A quotient of a nonnegative extended real by a positive real is nonnegative. -/
theorem div_nonneg_of_pos {s : EReal} {c : ℝ} (hs : 0 ≤ s) (hc : 0 < c) : 0 ≤ Ideal.div s (c : EReal) := by
  unfold Ideal.div
  rw [if_neg (by exact_mod_cast hc.ne'), ← EReal.coe_inv]
  exact mul_nonneg hs (EReal.coe_nonneg.mpr (inv_nonneg.mpr hc.le))

/-- The variance is nonnegative, whatever the row holds. -/
theorem rowVar_nonneg {N : ℕ} {c : ℝ} (hc : 0 < c) (z : Fin N → EReal) : 0 ≤ rowVar (c : EReal) z :=
  div_nonneg_of_pos (Finset.sum_nonneg fun k _ => mul_self_nonneg _) hc

/-- So the radicand, the variance plus a positive real, is positive. -/
theorem radicand_pos {N : ℕ} {c e : ℝ} (hc : 0 < c) (he : 0 < e) (z : Fin N → EReal) :
    0 < rowVar (c : EReal) z + (e : EReal) :=
  lt_of_lt_of_le (EReal.coe_pos.mpr he) (le_add_of_nonneg_left (rowVar_nonneg hc z))

/-- Above zero a product with the reciprocal square root is the quotient by the square root: at a positive real
    both are `a · (√v)⁻¹`, at `⊤` both are `a · 0`. -/
theorem mul_rsqrt_eq_div_sqrt (a v : EReal) (hv : 0 < v) : a * Ideal.rsqrt v = Ideal.div a (Ideal.sqrt v) := by
  induction v using EReal.rec with
  | bot => exact absurd hv (not_lt.mpr bot_le)
  | top => rw [Ideal.rsqrt_top, Ideal.sqrt_top, Ideal.div, if_neg EReal.top_ne_zero, EReal.inv_top]
  | coe r =>
    have hr : 0 < r := EReal.coe_pos.mp hv
    rw [Ideal.rsqrt_coe, Ideal.sqrt_coe, if_neg (not_lt.mpr hr.le), if_neg hr.ne', if_neg (not_lt.mpr hr.le), Ideal.div,
      if_neg (by exact_mod_cast (Real.sqrt_pos.mpr hr).ne'), EReal.coe_inv]

/-- The two spellings of LayerNorm are one function, for a positive count and a positive `ε`. -/
theorem lnRsqrt_eq_lnSqrt {N : ℕ} {c e : ℝ} (hc : 0 < c) (he : 0 < e) (z γ β : Fin N → EReal) :
    lnRsqrt (c : EReal) (e : EReal) z γ β = lnSqrt (c : EReal) (e : EReal) z γ β := by
  funext n
  unfold lnRsqrt lnSqrt
  rw [mul_rsqrt_eq_div_sqrt _ _ (radicand_pos hc he z)]

/-! ## The cell, one row -/

/-- A row times a matrix: entry `n` of `x · W`. -/
def rowMat {K N : ℕ} (xr : Fin K → EReal) (W : (⟨2, ![K, N]⟩ : Shape).Idx → EReal) (n : Fin N) : EReal :=
  ∑ k : Fin K, xr k * W (ix2 k n)

/-- Entry `q` of the run of 512 gate columns that starts at column `o`. -/
def gIdx (o : ℕ) (ho : o + 512 ≤ 2048) (q : Fin 512) : Fin 2048 := ⟨o + q.val, by have := q.isLt; omega⟩

/-- The LayerNorm of a row of length `N`, as the cell is handed it. -/
abbrev RowNorm (N : ℕ) := (Fin N → EReal) → (Fin N → EReal) → (Fin N → EReal) → Fin N → EReal

/-- The gate pre-activations of one row: `LN(x · W_ih) + LN(h · W_hh)`. -/
def gates (L : RowNorm 2048) (xr hr : Fin 512 → EReal) (Wih Whh : (⟨2, ![512, 2048]⟩ : Shape).Idx → EReal)
    (γih βih γhh βhh : Fin 2048 → EReal) (n : Fin 2048) : EReal :=
  L (rowMat xr Wih) γih βih n + L (rowMat hr Whh) γhh βhh n

/-- The new cell state of one row: `σ(f) · c_prev + σ(i) · tanh(g)`. -/
def cRow (L : RowNorm 2048) (xr hr cr : Fin 512 → EReal) (Wih Whh : (⟨2, ![512, 2048]⟩ : Shape).Idx → EReal)
    (γih βih γhh βhh : Fin 2048 → EReal) (q : Fin 512) : EReal :=
  Ideal.logistic (gates L xr hr Wih Whh γih βih γhh βhh (gIdx 512 (by decide) q)) * cr q
    + Ideal.logistic (gates L xr hr Wih Whh γih βih γhh βhh (gIdx 0 (by decide) q))
      * Ideal.tanh (gates L xr hr Wih Whh γih βih γhh βhh (gIdx 1024 (by decide) q))

/-- The new hidden state of one row: `σ(o) · tanh(LN(c_new))`. -/
def hRow (L : RowNorm 2048) (L' : RowNorm 512) (xr hr cr : Fin 512 → EReal)
    (Wih Whh : (⟨2, ![512, 2048]⟩ : Shape).Idx → EReal) (γih βih γhh βhh : Fin 2048 → EReal) (γc βc : Fin 512 → EReal)
    (q : Fin 512) : EReal :=
  Ideal.logistic (gates L xr hr Wih Whh γih βih γhh βhh (gIdx 1536 (by decide) q))
    * Ideal.tanh (L' (cRow L xr hr cr Wih Whh γih βih γhh βhh) γc βc q)

/-! ## The three float constants -/

/-- The count of a gate row, `2048.0`. -/
theorem ofBits_2048 : Ideal.ofBits .f32 0x45000000#32 = ((2048 : ℝ) : EReal) := by
  simp [Ideal.ofBits, Ideal.ieee, -EReal.coe_mul]; norm_num

/-- The count of a cell row, `512.0`. -/
theorem ofBits_512 : Ideal.ofBits .f32 0x44000000#32 = ((512 : ℝ) : EReal) := by
  simp [Ideal.ofBits, Ideal.ieee, -EReal.coe_mul]; norm_num

/-- The `ε` under the root, the float nearest `1e-5`: a positive real. -/
theorem ofBits_eps : Ideal.ofBits .f32 0x3727C5AC#32 = ((10995116 / 1099511627776 : ℝ) : EReal) := by
  simp [Ideal.ofBits, Ideal.ieee, -EReal.coe_mul]; norm_num

/-! ## The two result arrays, index by index -/

/-- The new cell states of all 16384 rows: entry `(b, q)` is row `b`'s `cRow` at `q`, of the rows `b` of the three
    batch arrays, the two weight matrices and the four gate scale and shift vectors. -/
def Cspec (L : RowNorm 2048) (X H C : (⟨2, ![16384, 512]⟩ : Shape).Idx → EReal)
    (Wih Whh : (⟨2, ![512, 2048]⟩ : Shape).Idx → EReal) (γih βih γhh βhh : (⟨1, ![2048]⟩ : Shape).Idx → EReal) :
    (⟨2, ![16384, 512]⟩ : Shape).Idx → EReal := fun i =>
  cRow L (fun k => X (ix2 (⟨(i 0).val, idx2_lt0 i⟩ : Fin 16384) k)) (fun k => H (ix2 (⟨(i 0).val, idx2_lt0 i⟩ : Fin 16384) k))
    (fun k => C (ix2 (⟨(i 0).val, idx2_lt0 i⟩ : Fin 16384) k)) Wih Whh (fun n => γih (ix1 n)) (fun n => βih (ix1 n))
    (fun n => γhh (ix1 n)) (fun n => βhh (ix1 n)) (⟨(i 1).val, idx2_lt1 i⟩ : Fin 512)

/-- The new hidden states of all 16384 rows, likewise, with the cell LayerNorm's scale and shift vectors. -/
def Hspec (L : RowNorm 2048) (L' : RowNorm 512) (X H C : (⟨2, ![16384, 512]⟩ : Shape).Idx → EReal)
    (Wih Whh : (⟨2, ![512, 2048]⟩ : Shape).Idx → EReal) (γih βih γhh βhh : (⟨1, ![2048]⟩ : Shape).Idx → EReal)
    (γc βc : (⟨1, ![512]⟩ : Shape).Idx → EReal) : (⟨2, ![16384, 512]⟩ : Shape).Idx → EReal := fun i =>
  hRow L L' (fun k => X (ix2 (⟨(i 0).val, idx2_lt0 i⟩ : Fin 16384) k)) (fun k => H (ix2 (⟨(i 0).val, idx2_lt0 i⟩ : Fin 16384) k))
    (fun k => C (ix2 (⟨(i 0).val, idx2_lt0 i⟩ : Fin 16384) k)) Wih Whh (fun n => γih (ix1 n)) (fun n => βih (ix1 n))
    (fun n => γhh (ix1 n)) (fun n => βhh (ix1 n)) (fun n => γc (ix1 n)) (fun n => βc (ix1 n)) (⟨(i 1).val, idx2_lt1 i⟩ : Fin 512)

theorem Cspec_ix2 (L : RowNorm 2048) (X H C : (⟨2, ![16384, 512]⟩ : Shape).Idx → EReal)
    (Wih Whh : (⟨2, ![512, 2048]⟩ : Shape).Idx → EReal) (γih βih γhh βhh : (⟨1, ![2048]⟩ : Shape).Idx → EReal)
    (b : Fin 16384) (q : Fin 512) :
    Cspec L X H C Wih Whh γih βih γhh βhh (ix2 b q)
      = cRow L (fun k => X (ix2 b k)) (fun k => H (ix2 b k)) (fun k => C (ix2 b k)) Wih Whh (fun n => γih (ix1 n))
          (fun n => βih (ix1 n)) (fun n => γhh (ix1 n)) (fun n => βhh (ix1 n)) q := rfl

theorem Hspec_ix2 (L : RowNorm 2048) (L' : RowNorm 512) (X H C : (⟨2, ![16384, 512]⟩ : Shape).Idx → EReal)
    (Wih Whh : (⟨2, ![512, 2048]⟩ : Shape).Idx → EReal) (γih βih γhh βhh : (⟨1, ![2048]⟩ : Shape).Idx → EReal)
    (γc βc : (⟨1, ![512]⟩ : Shape).Idx → EReal) (b : Fin 16384) (q : Fin 512) :
    Hspec L L' X H C Wih Whh γih βih γhh βhh γc βc (ix2 b q)
      = hRow L L' (fun k => X (ix2 b k)) (fun k => H (ix2 b k)) (fun k => C (ix2 b k)) Wih Whh (fun n => γih (ix1 n))
          (fun n => βih (ix1 n)) (fun n => γhh (ix1 n)) (fun n => βhh (ix1 n)) (fun n => γc (ix1 n)) (fun n => βc (ix1 n)) q := rfl

/-- The two LayerNorms as the programs spell their constants. -/
abbrev cnt2048 : EReal := Ideal.ofBits .f32 0x45000000#32
abbrev cnt512 : EReal := Ideal.ofBits .f32 0x44000000#32
abbrev epsLN : EReal := Ideal.ofBits .f32 0x3727C5AC#32

/-- With the programs' constants the two spellings of LayerNorm are one function, at both row lengths. -/
theorem lnRsqrt_2048 : (lnRsqrt cnt2048 epsLN : RowNorm 2048) = lnSqrt cnt2048 epsLN := by
  funext z γ β
  show lnRsqrt (Ideal.ofBits .f32 0x45000000#32) (Ideal.ofBits .f32 0x3727C5AC#32) z γ β
    = lnSqrt (Ideal.ofBits .f32 0x45000000#32) (Ideal.ofBits .f32 0x3727C5AC#32) z γ β
  rw [ofBits_2048, ofBits_eps]
  exact lnRsqrt_eq_lnSqrt (c := 2048) (e := 10995116 / 1099511627776) (by norm_num) (by norm_num) z γ β

theorem lnRsqrt_512 : (lnRsqrt cnt512 epsLN : RowNorm 512) = lnSqrt cnt512 epsLN := by
  funext z γ β
  show lnRsqrt (Ideal.ofBits .f32 0x44000000#32) (Ideal.ofBits .f32 0x3727C5AC#32) z γ β
    = lnSqrt (Ideal.ofBits .f32 0x44000000#32) (Ideal.ofBits .f32 0x3727C5AC#32) z γ β
  rw [ofBits_512, ofBits_eps]
  exact lnRsqrt_eq_lnSqrt (c := 512) (e := 10995116 / 1099511627776) (by norm_num) (by norm_num) z γ β

end Cert.LstmSpec

end
-- ==== Proof.KernelRows.lean ====
/-
  The kernel's body, one block of 256 batch rows, read at an index.

  Every stored value of the body is built from two shapes of step. A LANE SUM of a `[256, N]` block puts at row `p`
  the sum of that row (`laneSum_apply`); kept as a column `[256, 1]` and broadcast back over the `N` lanes it is
  read at `(p, n)` as the row's own value (`colCast_apply`, `colBcast_apply`), and a `[1, N]` scale or shift vector
  broadcast over the rows is read at `(p, n)` as its entry `n`. So the body's LayerNorm of a block — with the
  reciprocal square root as a factor — is, at `(p, n)`, the row LayerNorm `lnRsqrt` of row `p` at `n`
  (`normBlock_apply`), given that the mean column holds the rows' means (`meanCol_apply`).
-/
import proofs.«104600_j10608569221488_1_alg».proof.Proof.Gen.KernelIdeal.Skeleton
import proofs.«104600_j10608569221488_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KRows

open Cert.KernelIdeal Cert.KernelIdeal.Gen Cert.LstmSpec Idealize.ShloMosaic Idealize.ShloMosaic.ValueIdx

/-! ## Layout steps read at an index -/

/-- The lane sum of a `[256, N]` block at row `p` is the sum of row `p`. -/
theorem laneSum_apply {N : ℕ} (v : FVec Ideal ⟨2, ![256, N]⟩ .f32) (h : (⟨2, ![256, N]⟩ : Shape).Reduces [1] ⟨1, ![256]⟩)
    (hφ : FKind.Formats .f32) (hacc : (0x00000000#32 : BitVec 32) = FKind.add.neutral .f32 hφ) (p : Fin 256) :
    multiReduction .add [1] ⟨1, ![256]⟩ v 0x00000000#32 h hφ hacc (ix1 p) = ∑ k : Fin N, v (ix2 p k) := by
  refine (Ideal.multiReduction_add_single v _ h hφ hacc (ix1 p)).trans ?_
  refine Finset.sum_congr rfl fun k _ => congrArg v ?_
  funext a
  match a with
  | ⟨0, _⟩ => rfl
  | ⟨1, _⟩ => rfl

/-- A `[256]` vector kept as a column `[256, 1]` reads at `(p, 0)` its entry `p`. -/
theorem colCast_apply {α : Type} (v : (⟨1, ![256]⟩ : Shape).Idx → α) (h : (⟨1, ![256]⟩ : Shape).ShapeCasts ⟨2, ![256, 1]⟩)
    (p : Fin 256) (u : Fin 1) : shapeCast ⟨2, ![256, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[256, 1]` broadcast over `N` lanes reads at `(p, n)` the column's entry `p`. -/
theorem colBcast_apply {α : Type} {N : ℕ} (w : (⟨2, ![256, 1]⟩ : Shape).Idx → α)
    (h : (⟨2, ![256, 1]⟩ : Shape).Broadcasts ⟨2, ![256, N]⟩) (p : Fin 256) (n : Fin N) :
    broadcastTo ⟨2, ![256, N]⟩ w h (ix2 p n) = w (ix2 p (0 : Fin 1)) := by
  refine broadcastTo_apply w h (ix2 p n) (ix2 p (0 : Fin 1)) fun ax => ?_
  match ax with
  | ⟨0, _⟩ => rfl
  | ⟨1, _⟩ => rfl

/-! ## The body's LayerNorm of a block -/

/-- The mean column of a block: the lane sums, kept as a column, over the count. -/
def meanCol {N : ℕ} (cntw : BitVec 32) (z : FVec Ideal ⟨2, ![256, N]⟩ .f32)
    (hred : (⟨2, ![256, N]⟩ : Shape).Reduces [1] ⟨1, ![256]⟩) (hφ : FKind.Formats .f32)
    (hacc : (0x00000000#32 : BitVec 32) = FKind.add.neutral .f32 hφ)
    (hsc : (⟨1, ![256]⟩ : Shape).ShapeCasts ⟨2, ![256, 1]⟩) : FVec Ideal ⟨2, ![256, 1]⟩ .f32 :=
  divf (shapeCast ⟨2, ![256, 1]⟩ (multiReduction .add [1] ⟨1, ![256]⟩ z 0x00000000#32 hred hφ hacc) hsc)
    (broadcast ⟨2, ![256, 1]⟩ (Scalar.ofBits .f32 cntw))

theorem meanCol_apply {N : ℕ} (cntw : BitVec 32) (z : FVec Ideal ⟨2, ![256, N]⟩ .f32)
    (hred : (⟨2, ![256, N]⟩ : Shape).Reduces [1] ⟨1, ![256]⟩) (hφ : FKind.Formats .f32)
    (hacc : (0x00000000#32 : BitVec 32) = FKind.add.neutral .f32 hφ)
    (hsc : (⟨1, ![256]⟩ : Shape).ShapeCasts ⟨2, ![256, 1]⟩) (p : Fin 256) :
    meanCol cntw z hred hφ hacc hsc (ix2 p (0 : Fin 1)) = rowMean (Ideal.ofBits .f32 cntw) (fun k => z (ix2 p k)) := by
  show Ideal.div (shapeCast ⟨2, ![256, 1]⟩ (multiReduction .add [1] ⟨1, ![256]⟩ z 0x00000000#32 hred hφ hacc) hsc (ix2 p (0 : Fin 1)))
      (Ideal.ofBits .f32 cntw) = Ideal.div (∑ k, z (ix2 p k)) (Ideal.ofBits .f32 cntw)
  rw [colCast_apply, laneSum_apply]

/-- The body's LayerNorm of a block `z`, given its mean column: deviations from the mean, their squares' lane sums over
    the count plus `ε`, the reciprocal square root broadcast back as a factor, then scale and shift. -/
def normBlock {N : ℕ} (cntw epsw : BitVec 32) (z : FVec Ideal ⟨2, ![256, N]⟩ .f32) (mean : FVec Ideal ⟨2, ![256, 1]⟩ .f32)
    (g b : FVec Ideal ⟨2, ![1, N]⟩ .f32)
    (hred : (⟨2, ![256, N]⟩ : Shape).Reduces [1] ⟨1, ![256]⟩) (hφ : FKind.Formats .f32)
    (hacc : (0x00000000#32 : BitVec 32) = FKind.add.neutral .f32 hφ)
    (hsc : (⟨1, ![256]⟩ : Shape).ShapeCasts ⟨2, ![256, 1]⟩)
    (hbc : (⟨2, ![256, 1]⟩ : Shape).Broadcasts ⟨2, ![256, N]⟩) (hbr : (⟨2, ![1, N]⟩ : Shape).Broadcasts ⟨2, ![256, N]⟩) :
    FVec Ideal ⟨2, ![256, N]⟩ .f32 :=
  addf (mulf (mulf (subf z (broadcastTo ⟨2, ![256, N]⟩ mean hbc))
      (broadcastTo ⟨2, ![256, N]⟩ (rsqrt (addf (divf (shapeCast ⟨2, ![256, 1]⟩ (multiReduction .add [1] ⟨1, ![256]⟩
        (mulf (subf z (broadcastTo ⟨2, ![256, N]⟩ mean hbc)) (subf z (broadcastTo ⟨2, ![256, N]⟩ mean hbc))) 0x00000000#32 hred hφ hacc) hsc)
        (broadcast ⟨2, ![256, 1]⟩ (Scalar.ofBits .f32 cntw))) (broadcast ⟨2, ![256, 1]⟩ (Scalar.ofBits .f32 epsw)))) hbc))
      (broadcastTo ⟨2, ![256, N]⟩ g hbr)) (broadcastTo ⟨2, ![256, N]⟩ b hbr)

theorem normBlock_apply {N : ℕ} (cntw epsw : BitVec 32) (z : FVec Ideal ⟨2, ![256, N]⟩ .f32) (mean : FVec Ideal ⟨2, ![256, 1]⟩ .f32)
    (g b : FVec Ideal ⟨2, ![1, N]⟩ .f32)
    (hred : (⟨2, ![256, N]⟩ : Shape).Reduces [1] ⟨1, ![256]⟩) (hφ : FKind.Formats .f32)
    (hacc : (0x00000000#32 : BitVec 32) = FKind.add.neutral .f32 hφ)
    (hsc : (⟨1, ![256]⟩ : Shape).ShapeCasts ⟨2, ![256, 1]⟩)
    (hbc : (⟨2, ![256, 1]⟩ : Shape).Broadcasts ⟨2, ![256, N]⟩) (hbr : (⟨2, ![1, N]⟩ : Shape).Broadcasts ⟨2, ![256, N]⟩)
    (p : Fin 256) (n : Fin N)
    (hmean : mean (ix2 p (0 : Fin 1)) = rowMean (Ideal.ofBits .f32 cntw) (fun k => z (ix2 p k))) :
    normBlock cntw epsw z mean g b hred hφ hacc hsc hbc hbr (ix2 p n)
      = lnRsqrt (Ideal.ofBits .f32 cntw) (Ideal.ofBits .f32 epsw) (fun k => z (ix2 p k)) (fun k => g (ix2 (0 : Fin 1) k))
          (fun k => b (ix2 (0 : Fin 1) k)) n := by
  have hdev : ∀ k : Fin N, subf z (broadcastTo ⟨2, ![256, N]⟩ mean hbc) (ix2 p k)
      = z (ix2 p k) - rowMean (Ideal.ofBits .f32 cntw) (fun k => z (ix2 p k)) := fun k => by
    show z (ix2 p k) - broadcastTo ⟨2, ![256, N]⟩ mean hbc (ix2 p k) = _
    rw [colBcast_apply, hmean]
  show (subf z (broadcastTo ⟨2, ![256, N]⟩ mean hbc) (ix2 p n)
        * broadcastTo ⟨2, ![256, N]⟩ (rsqrt (addf (divf (shapeCast ⟨2, ![256, 1]⟩ (multiReduction .add [1] ⟨1, ![256]⟩
            (mulf (subf z (broadcastTo ⟨2, ![256, N]⟩ mean hbc)) (subf z (broadcastTo ⟨2, ![256, N]⟩ mean hbc))) 0x00000000#32 hred hφ hacc) hsc)
            (broadcast ⟨2, ![256, 1]⟩ (Scalar.ofBits .f32 cntw))) (broadcast ⟨2, ![256, 1]⟩ (Scalar.ofBits .f32 epsw)))) hbc (ix2 p n))
        * broadcastTo ⟨2, ![256, N]⟩ g hbr (ix2 p n) + broadcastTo ⟨2, ![256, N]⟩ b hbr (ix2 p n) = _
  rw [colBcast_apply, broadcastTo_1b_ab_apply, broadcastTo_1b_ab_apply, hdev]
  show (_ * Ideal.rsqrt (Ideal.div (shapeCast ⟨2, ![256, 1]⟩ (multiReduction .add [1] ⟨1, ![256]⟩
            (mulf (subf z (broadcastTo ⟨2, ![256, N]⟩ mean hbc)) (subf z (broadcastTo ⟨2, ![256, N]⟩ mean hbc))) 0x00000000#32 hred hφ hacc) hsc (ix2 p (0 : Fin 1)))
          (Ideal.ofBits .f32 cntw) + Ideal.ofBits .f32 epsw)) * _ + _ = _
  rw [colCast_apply, laneSum_apply]
  have hsq : (∑ k : Fin N, mulf (subf z (broadcastTo ⟨2, ![256, N]⟩ mean hbc)) (subf z (broadcastTo ⟨2, ![256, N]⟩ mean hbc)) (ix2 p k))
      = ∑ k : Fin N, (z (ix2 p k) - rowMean (Ideal.ofBits .f32 cntw) (fun k => z (ix2 p k)))
          * (z (ix2 p k) - rowMean (Ideal.ofBits .f32 cntw) (fun k => z (ix2 p k))) :=
    Finset.sum_congr rfl fun k _ => by
      show subf z (broadcastTo ⟨2, ![256, N]⟩ mean hbc) (ix2 p k) * subf z (broadcastTo ⟨2, ![256, N]⟩ mean hbc) (ix2 p k) = _
      rw [hdev]
  rw [hsq]
  rfl

/-! ## The stored values of the body -/

/-- The float format of the lane sums, and their accumulator word as the sum's neutral element. -/
theorem fmt32 : FKind.Formats .f32 := .inl rfl
theorem zeroAcc : (0x00000000#32 : BitVec 32) = FKind.add.neutral .f32 fmt32 := rfl

/-- A product of a `[256, 512]` block with a `[512, 2048]` matrix on the matrix unit, into a zero accumulator: at `(p, n)`
    the sum over the 512 contracted columns of row `p` times column `n` (a change of float format is the identity). -/
theorem matmulBlock_apply (v1 : FVec Ideal S256x512 .f32) (v7 : FVec Ideal S512x2048 .bf16) (p : Fin 256) (n : Fin 2048) :
    k0_pay2 (F := Ideal) v1 v7 (ix2 p n) = rowMat (fun k => v1 (ix2 p k)) v7 n := by
  unfold k0_pay2
  show FloatOps.matmul dot_S256x512_S512x2048_S256x2048_1_0_0_1_n_n none (truncf .bf16 v1 bitsLt_bf16_f32)
      (shapeCast S512x2048 v7 shapeCasts_S512x2048_S512x2048) (constant S256x2048 .f32 0x00000000#32) (ix2 p n) = _
  rw [Ideal.matmul_constant_zero_apply, shapeCast_self,
    ← Equiv.sum_comp (contrEquiv1 dot_S256x512_S512x2048_S256x2048_1_0_0_1_n_n 512 rfl rfl).symm]
  refine Finset.sum_congr rfl fun c _ => ?_
  have c2 := contrEquiv1_symm_val dot_S256x512_S512x2048_S256x2048_1_0_0_1_n_n 512 rfl rfl c
  have l2 : dot_S256x512_S512x2048_S256x2048_1_0_0_1_n_n.lhsIdx (ix2 p n) ((contrEquiv1 _ 512 rfl rfl).symm c) = ix2 p c := by
    funext ax; apply Fin.ext
    match ax with
    | ⟨0, _⟩ => simp [DotDims.lhsIdx, dot_S256x512_S512x2048_S256x2048_1_0_0_1_n_n]; rfl
    | ⟨1, _⟩ => simp [DotDims.lhsIdx, dot_S256x512_S512x2048_S256x2048_1_0_0_1_n_n]; exact c2
  have r2 : dot_S256x512_S512x2048_S256x2048_1_0_0_1_n_n.rhsIdx (ix2 p n) ((contrEquiv1 _ 512 rfl rfl).symm c) = ix2 c n := by
    funext ax; apply Fin.ext
    match ax with
    | ⟨0, _⟩ => simp [DotDims.rhsIdx, dot_S256x512_S512x2048_S256x2048_1_0_0_1_n_n]; exact c2
    | ⟨1, _⟩ => simp [DotDims.rhsIdx, dot_S256x512_S512x2048_S256x2048_1_0_0_1_n_n]; rfl
  rw [l2, r2]
  rfl

/-- The input half of the gates: the LayerNorm of `x · W_ih`. -/
theorem normIh_apply (v0 : FVec Ideal S256x512 .f32) (v5 : FVec Ideal S512x2048 .bf16) (v11 v13 : FVec Ideal S1x2048 .f32)
    (p : Fin 256) (n : Fin 2048) :
    k0_pay3 (F := Ideal) v0 v5 v11 v13 (ix2 p n)
      = lnRsqrt cnt2048 epsLN (rowMat (fun k => v0 (ix2 p k)) v5) (fun k => v11 (ix2 (0 : Fin 1) k))
          (fun k => v13 (ix2 (0 : Fin 1) k)) n := by
  have e : k0_pay3 (F := Ideal) v0 v5 v11 v13
      = normBlock 0x45000000#32 0x3727C5AC#32 (k0_pay2 (F := Ideal) v0 v5)
          (meanCol 0x45000000#32 (k0_pay2 (F := Ideal) v0 v5) reduces_S256x2048_S256 fmt32 zeroAcc shapeCasts_S256_S256x1)
          (shapeCast S1x2048 v11 shapeCasts_S1x2048_S1x2048) (shapeCast S1x2048 v13 shapeCasts_S1x2048_S1x2048)
          reduces_S256x2048_S256 fmt32 zeroAcc shapeCasts_S256_S256x1 broadcasts_S256x1_S256x2048 broadcasts_S1x2048_S256x2048 := rfl
  rw [e]
  refine (normBlock_apply _ _ _ _ _ _ _ _ _ _ _ _ p n (meanCol_apply _ _ _ _ _ _ p)).trans ?_
  rw [show (fun k => k0_pay2 (F := Ideal) v0 v5 (ix2 p k)) = rowMat (fun k => v0 (ix2 p k)) v5 from
    funext fun k => matmulBlock_apply v0 v5 p k, shapeCast_self, shapeCast_self]

/-- The gate pre-activations of a block: the input half plus the LayerNorm of `h · W_hh`. -/
theorem gatesBlock_apply (v0 v1 : FVec Ideal S256x512 .f32) (v5 v7 : FVec Ideal S512x2048 .bf16)
    (v11 v13 v37 v39 : FVec Ideal S1x2048 .f32) (p : Fin 256) (n : Fin 2048) :
    k0_pay4 (F := Ideal) (k0_pay2 (F := Ideal) v1 v7) (k0_pay3 (F := Ideal) v0 v5 v11 v13) v37 v39 (ix2 p n)
      = gates (lnRsqrt cnt2048 epsLN) (fun k => v0 (ix2 p k)) (fun k => v1 (ix2 p k)) v5 v7
          (fun k => v11 (ix2 (0 : Fin 1) k)) (fun k => v13 (ix2 (0 : Fin 1) k))
          (fun k => v37 (ix2 (0 : Fin 1) k)) (fun k => v39 (ix2 (0 : Fin 1) k)) n := by
  have e : k0_pay4 (F := Ideal) (k0_pay2 (F := Ideal) v1 v7) (k0_pay3 (F := Ideal) v0 v5 v11 v13) v37 v39
      = addf (k0_pay3 (F := Ideal) v0 v5 v11 v13)
          (normBlock 0x45000000#32 0x3727C5AC#32 (k0_pay2 (F := Ideal) v1 v7)
            (meanCol 0x45000000#32 (k0_pay2 (F := Ideal) v1 v7) reduces_S256x2048_S256 fmt32 zeroAcc shapeCasts_S256_S256x1)
            (shapeCast S1x2048 v37 shapeCasts_S1x2048_S1x2048) (shapeCast S1x2048 v39 shapeCasts_S1x2048_S1x2048)
            reduces_S256x2048_S256 fmt32 zeroAcc shapeCasts_S256_S256x1 broadcasts_S256x1_S256x2048 broadcasts_S1x2048_S256x2048) := rfl
  rw [e]
  show k0_pay3 (F := Ideal) v0 v5 v11 v13 (ix2 p n) + normBlock _ _ _ _ _ _ _ _ _ _ _ _ (ix2 p n) = _
  rw [normIh_apply, normBlock_apply _ _ _ _ _ _ _ _ _ _ _ _ p n (meanCol_apply _ _ _ _ _ _ p),
    show (fun k => k0_pay2 (F := Ideal) v1 v7 (ix2 p k)) = rowMat (fun k => v1 (ix2 p k)) v7 from
      funext fun k => matmulBlock_apply v1 v7 p k, shapeCast_self, shapeCast_self]
  rfl

/-- A run of 512 gate columns cut out of a `[256, 2048]` block reads, at `(p, q)`, the block at column `o + q`. -/
theorem gateSlice_apply (G : FVec Ideal S256x2048 .f32) (o : ℕ) (ho : o + 512 ≤ 2048)
    (h : S256x2048.Slices ![0, o] S256x512) (p : Fin 256) (q : Fin 512) :
    extractStridedSlice S256x512 ![0, o] G h (ix2 p q) = G (ix2 p (gIdx o ho q)) :=
  slice2_axis1_apply o G h p q (gIdx o ho q) rfl

/-- The new cell state of a block at `(p, q)`: row `p`'s `cRow` at `q`. -/
theorem cellBlock_apply (v0 v1 v2 : FVec Ideal S256x512 .f32) (v5 v7 : FVec Ideal S512x2048 .bf16)
    (v11 v13 v37 v39 : FVec Ideal S1x2048 .f32) (p : Fin 256) (q : Fin 512) :
    k0_pay6 (F := Ideal) v2 (k0_pay2 (F := Ideal) v1 v7) (k0_pay3 (F := Ideal) v0 v5 v11 v13) v37 v39 (ix2 p q)
      = cRow (lnRsqrt cnt2048 epsLN) (fun k => v0 (ix2 p k)) (fun k => v1 (ix2 p k)) (fun k => v2 (ix2 p k)) v5 v7
          (fun k => v11 (ix2 (0 : Fin 1) k)) (fun k => v13 (ix2 (0 : Fin 1) k))
          (fun k => v37 (ix2 (0 : Fin 1) k)) (fun k => v39 (ix2 (0 : Fin 1) k)) q := by
  show Ideal.logistic (extractStridedSlice S256x512 ![0, 512] (k0_pay4 (F := Ideal) (k0_pay2 (F := Ideal) v1 v7) (k0_pay3 (F := Ideal) v0 v5 v11 v13) v37 v39)
          slices_S256x2048_o0_512_S256x512 (ix2 p q)) * v2 (ix2 p q)
      + Ideal.logistic (extractStridedSlice S256x512 ![0, 0] (k0_pay4 (F := Ideal) (k0_pay2 (F := Ideal) v1 v7) (k0_pay3 (F := Ideal) v0 v5 v11 v13) v37 v39)
          slices_S256x2048_o0_0_S256x512 (ix2 p q))
        * Ideal.tanh (extractStridedSlice S256x512 ![0, 1024] (k0_pay4 (F := Ideal) (k0_pay2 (F := Ideal) v1 v7) (k0_pay3 (F := Ideal) v0 v5 v11 v13) v37 v39)
          slices_S256x2048_o0_1024_S256x512 (ix2 p q)) = _
  rw [gateSlice_apply _ 512 (by decide), gateSlice_apply _ 0 (by decide), gateSlice_apply _ 1024 (by decide),
    gatesBlock_apply, gatesBlock_apply, gatesBlock_apply]
  rfl

/-- The output gate of a block at `(p, q)`. -/
theorem outGateBlock_apply (v0 v1 : FVec Ideal S256x512 .f32) (v5 v7 : FVec Ideal S512x2048 .bf16)
    (v11 v13 v37 v39 : FVec Ideal S1x2048 .f32) (p : Fin 256) (q : Fin 512) :
    k0_pay5 (F := Ideal) (k0_pay2 (F := Ideal) v1 v7) (k0_pay3 (F := Ideal) v0 v5 v11 v13) v37 v39 (ix2 p q)
      = Ideal.logistic (gates (lnRsqrt cnt2048 epsLN) (fun k => v0 (ix2 p k)) (fun k => v1 (ix2 p k)) v5 v7
          (fun k => v11 (ix2 (0 : Fin 1) k)) (fun k => v13 (ix2 (0 : Fin 1) k))
          (fun k => v37 (ix2 (0 : Fin 1) k)) (fun k => v39 (ix2 (0 : Fin 1) k)) (gIdx 1536 (by decide) q)) := by
  show Ideal.logistic (extractStridedSlice S256x512 ![0, 1536] (k0_pay4 (F := Ideal) (k0_pay2 (F := Ideal) v1 v7) (k0_pay3 (F := Ideal) v0 v5 v11 v13) v37 v39)
          slices_S256x2048_o0_1536_S256x512 (ix2 p q)) = _
  rw [gateSlice_apply _ 1536 (by decide), gatesBlock_apply]

/-- The new hidden state of a block at `(p, q)`: row `p`'s `hRow` at `q`. -/
theorem hiddenBlock_apply (v0 v1 v2 : FVec Ideal S256x512 .f32) (v5 v7 : FVec Ideal S512x2048 .bf16)
    (v11 v13 v37 v39 : FVec Ideal S1x2048 .f32) (v75 v77 : FVec Ideal S1x512 .f32) (p : Fin 256) (q : Fin 512) :
    k0_pay1 (F := Ideal) (k0_pay5 (F := Ideal) (k0_pay2 (F := Ideal) v1 v7) (k0_pay3 (F := Ideal) v0 v5 v11 v13) v37 v39)
        (k0_pay6 (F := Ideal) v2 (k0_pay2 (F := Ideal) v1 v7) (k0_pay3 (F := Ideal) v0 v5 v11 v13) v37 v39)
        (k0_pay7 (F := Ideal) v75) (k0_pay8 (F := Ideal) v77)
        (k0_pay9 (F := Ideal) v2 (k0_pay2 (F := Ideal) v1 v7) (k0_pay3 (F := Ideal) v0 v5 v11 v13) v37 v39) (ix2 p q)
      = hRow (lnRsqrt cnt2048 epsLN) (lnRsqrt cnt512 epsLN) (fun k => v0 (ix2 p k)) (fun k => v1 (ix2 p k))
          (fun k => v2 (ix2 p k)) v5 v7 (fun k => v11 (ix2 (0 : Fin 1) k)) (fun k => v13 (ix2 (0 : Fin 1) k))
          (fun k => v37 (ix2 (0 : Fin 1) k)) (fun k => v39 (ix2 (0 : Fin 1) k))
          (fun k => v75 (ix2 (0 : Fin 1) k)) (fun k => v77 (ix2 (0 : Fin 1) k)) q := by
  have e : k0_pay1 (F := Ideal) (k0_pay5 (F := Ideal) (k0_pay2 (F := Ideal) v1 v7) (k0_pay3 (F := Ideal) v0 v5 v11 v13) v37 v39)
        (k0_pay6 (F := Ideal) v2 (k0_pay2 (F := Ideal) v1 v7) (k0_pay3 (F := Ideal) v0 v5 v11 v13) v37 v39)
        (k0_pay7 (F := Ideal) v75) (k0_pay8 (F := Ideal) v77)
        (k0_pay9 (F := Ideal) v2 (k0_pay2 (F := Ideal) v1 v7) (k0_pay3 (F := Ideal) v0 v5 v11 v13) v37 v39)
      = mulf (k0_pay5 (F := Ideal) (k0_pay2 (F := Ideal) v1 v7) (k0_pay3 (F := Ideal) v0 v5 v11 v13) v37 v39)
          (tanh (normBlock 0x44000000#32 0x3727C5AC#32
            (k0_pay6 (F := Ideal) v2 (k0_pay2 (F := Ideal) v1 v7) (k0_pay3 (F := Ideal) v0 v5 v11 v13) v37 v39)
            (meanCol 0x44000000#32 (k0_pay6 (F := Ideal) v2 (k0_pay2 (F := Ideal) v1 v7) (k0_pay3 (F := Ideal) v0 v5 v11 v13) v37 v39)
              reduces_S256x512_S256 fmt32 zeroAcc shapeCasts_S256_S256x1)
            (shapeCast S1x512 v75 shapeCasts_S1x512_S1x512) (shapeCast S1x512 v77 shapeCasts_S1x512_S1x512)
            reduces_S256x512_S256 fmt32 zeroAcc shapeCasts_S256_S256x1 broadcasts_S256x1_S256x512 broadcasts_S1x512_S256x512)) := rfl
  rw [e]
  show k0_pay5 (F := Ideal) (k0_pay2 (F := Ideal) v1 v7) (k0_pay3 (F := Ideal) v0 v5 v11 v13) v37 v39 (ix2 p q)
      * Ideal.tanh (normBlock _ _ _ _ _ _ _ _ _ _ _ _ (ix2 p q)) = _
  rw [outGateBlock_apply, normBlock_apply _ _ _ _ _ _ _ _ _ _ _ _ p q (meanCol_apply _ _ _ _ _ _ p),
    show (fun k => k0_pay6 (F := Ideal) v2 (k0_pay2 (F := Ideal) v1 v7) (k0_pay3 (F := Ideal) v0 v5 v11 v13) v37 v39 (ix2 p k))
        = cRow (lnRsqrt cnt2048 epsLN) (fun k => v0 (ix2 p k)) (fun k => v1 (ix2 p k)) (fun k => v2 (ix2 p k)) v5 v7
          (fun k => v11 (ix2 (0 : Fin 1) k)) (fun k => v13 (ix2 (0 : Fin 1) k))
          (fun k => v37 (ix2 (0 : Fin 1) k)) (fun k => v39 (ix2 (0 : Fin 1) k)) from
      funext fun k => cellBlock_apply v0 v1 v2 v5 v7 v11 v13 v37 v39 p k, shapeCast_self, shapeCast_self]
  rfl

end Cert.KernelIdeal.KRows

end
-- ==== Proof.KernelArray.lean ====
/-
  From blocks to arrays: what the kernel leaves in its two result arrays.

  The grid has 64 points; point `t` works on batch rows `256·t … 256·t + 255`. Its three batch blocks are those rows of
  `x`, `h_prev` and `c_prev`; the two weight matrices (cast to a narrower float format before the call, which changes
  nothing on the extended reals) and the six scale and shift vectors (laid out as one row each) are the same whole
  arrays at every point. So the block that point `t` writes back is rows `256·t …` of the row specification applied to
  the argument arrays, the 64 blocks tile the `16384 × 512` results, and each result array ends as that function whole.
-/
import proofs.«104600_j10608569221488_1_alg».proof.Proof.KernelBlocks
import proofs.«104600_j10608569221488_1_alg».proof.Proof.KernelRows
import proofs.«104600_j10608569221488_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KArr

open Cert.KernelIdeal Cert.KernelIdeal.Gen Cert.KernelIdeal.ValueP Cert.KernelIdeal.KRows Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The two weight matrices reach the region through a change of float format: the same extended reals. -/
theorem V_wih (c : Dev nD) : (V m c main_v0 : S512x2048.Idx → EReal) = m ((c : Thread nD τ).loc main_arg3) := by
  dsimp only [Gen.V, Gen.hostOps0]; after_results; rfl

theorem V_whh (c : Dev nD) : (V m c main_v1 : S512x2048.Idx → EReal) = m ((c : Thread nD τ).loc main_arg4) := by
  dsimp only [Gen.V, Gen.hostOps0]; after_results; rfl

/-- The six scale and shift vectors reach the region laid out as one row: entry `(0, n)` is the vector's entry `n`. -/

theorem V_g5 (c : Dev nD) (n : Fin 2048) : (V m c main_v2 : S1x2048.Idx → EReal) (ix2 (0 : Fin 1) n)
    = (m ((c : Thread nD τ).loc main_arg5) : S2048.Idx → EReal) (ix1 n) := by
  have e : (V m c main_v2 : S1x2048.Idx → EReal) = shapeCast S1x2048 (m ((c : Thread nD τ).loc main_arg5)) shapeCasts_S2048_S1x2048 := by
    dsimp only [Gen.V, Gen.hostOps0]; after_results; rfl
  rw [e, shapeCast_a_1a_apply]

theorem V_g6 (c : Dev nD) (n : Fin 2048) : (V m c main_v3 : S1x2048.Idx → EReal) (ix2 (0 : Fin 1) n)
    = (m ((c : Thread nD τ).loc main_arg6) : S2048.Idx → EReal) (ix1 n) := by
  have e : (V m c main_v3 : S1x2048.Idx → EReal) = shapeCast S1x2048 (m ((c : Thread nD τ).loc main_arg6)) shapeCasts_S2048_S1x2048 := by
    dsimp only [Gen.V, Gen.hostOps0]; after_results; rfl
  rw [e, shapeCast_a_1a_apply]

theorem V_g7 (c : Dev nD) (n : Fin 2048) : (V m c main_v4 : S1x2048.Idx → EReal) (ix2 (0 : Fin 1) n)
    = (m ((c : Thread nD τ).loc main_arg7) : S2048.Idx → EReal) (ix1 n) := by
  have e : (V m c main_v4 : S1x2048.Idx → EReal) = shapeCast S1x2048 (m ((c : Thread nD τ).loc main_arg7)) shapeCasts_S2048_S1x2048 := by
    dsimp only [Gen.V, Gen.hostOps0]; after_results; rfl
  rw [e, shapeCast_a_1a_apply]

theorem V_g8 (c : Dev nD) (n : Fin 2048) : (V m c main_v5 : S1x2048.Idx → EReal) (ix2 (0 : Fin 1) n)
    = (m ((c : Thread nD τ).loc main_arg8) : S2048.Idx → EReal) (ix1 n) := by
  have e : (V m c main_v5 : S1x2048.Idx → EReal) = shapeCast S1x2048 (m ((c : Thread nD τ).loc main_arg8)) shapeCasts_S2048_S1x2048 := by
    dsimp only [Gen.V, Gen.hostOps0]; after_results; rfl
  rw [e, shapeCast_a_1a_apply]

theorem V_g9 (c : Dev nD) (n : Fin 512) : (V m c main_v6 : S1x512.Idx → EReal) (ix2 (0 : Fin 1) n)
    = (m ((c : Thread nD τ).loc main_arg9) : S512.Idx → EReal) (ix1 n) := by
  have e : (V m c main_v6 : S1x512.Idx → EReal) = shapeCast S1x512 (m ((c : Thread nD τ).loc main_arg9)) shapeCasts_S512_S1x512 := by
    dsimp only [Gen.V, Gen.hostOps0]; after_results; rfl
  rw [e, shapeCast_a_1a_apply]

theorem V_g10 (c : Dev nD) (n : Fin 512) : (V m c main_v7 : S1x512.Idx → EReal) (ix2 (0 : Fin 1) n)
    = (m ((c : Thread nD τ).loc main_arg10) : S512.Idx → EReal) (ix1 n) := by
  have e : (V m c main_v7 : S1x512.Idx → EReal) = shapeCast S1x512 (m ((c : Thread nD τ).loc main_arg10)) shapeCasts_S512_S1x512 := by
    dsimp only [Gen.V, Gen.hostOps0]; after_results; rfl
  rw [e, shapeCast_a_1a_apply]

/-! ## The index maps, decided over the 64 points -/

/-- The three batch windows and the two result windows sit at block row `t`, block column 0. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The weight and vector windows are their whole arrays at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## Each window's block at a point, read at an index -/

/-- The batch row that row `p` of point `t`'s blocks is. -/
def rowOf (t : Fin cfg0.N) (p : Fin 256) : Fin 16384 := ⟨t.val * 256 + p.val, by
  have ht : t.val < 64 := lt_of_lt_of_eq t.isLt N_0
  have := p.isLt; omega⟩

theorem blk_x (c : Dev nD) (t : Fin cfg0.N) (p : Fin 256) (k : Fin 512) : (iblk m c 0 t : S256x512.Idx → EReal) (ix2 p k)
    = (m ((c : Thread nD τ).loc main_arg0) : S16384x512.Idx → EReal) (ix2 (rowOf t p) k) := by
  show (V m c main_arg0 : S16384x512.Idx → EReal) (((cfg0.win 0).blk t).view.emb (ix2 p k)) = _
  rw [V_main_arg0]
  refine congrArg _ (funext fun a => Fin.ext ?_)
  have e0 := (idx_rows t).1.1
  have e1 := (idx_rows t).1.2
  match a with
  | ⟨0, _⟩ => show win0_0.index t (0 : Fin 2) * 256 + 1 * p.val = t.val * 256 + p.val; rw [e0]; omega
  | ⟨1, _⟩ => show win0_0.index t (1 : Fin 2) * 512 + 1 * k.val = k.val; rw [e1]; omega

theorem blk_h (c : Dev nD) (t : Fin cfg0.N) (p : Fin 256) (k : Fin 512) : (iblk m c 1 t : S256x512.Idx → EReal) (ix2 p k)
    = (m ((c : Thread nD τ).loc main_arg1) : S16384x512.Idx → EReal) (ix2 (rowOf t p) k) := by
  show (V m c main_arg1 : S16384x512.Idx → EReal) (((cfg0.win 1).blk t).view.emb (ix2 p k)) = _
  rw [V_main_arg1]
  refine congrArg _ (funext fun a => Fin.ext ?_)
  have e0 := (idx_rows t).2.1.1
  have e1 := (idx_rows t).2.1.2
  match a with
  | ⟨0, _⟩ => show win0_1.index t (0 : Fin 2) * 256 + 1 * p.val = t.val * 256 + p.val; rw [e0]; omega
  | ⟨1, _⟩ => show win0_1.index t (1 : Fin 2) * 512 + 1 * k.val = k.val; rw [e1]; omega

theorem blk_c (c : Dev nD) (t : Fin cfg0.N) (p : Fin 256) (k : Fin 512) : (iblk m c 2 t : S256x512.Idx → EReal) (ix2 p k)
    = (m ((c : Thread nD τ).loc main_arg2) : S16384x512.Idx → EReal) (ix2 (rowOf t p) k) := by
  show (V m c main_arg2 : S16384x512.Idx → EReal) (((cfg0.win 2).blk t).view.emb (ix2 p k)) = _
  rw [V_main_arg2]
  refine congrArg _ (funext fun a => Fin.ext ?_)
  have e0 := (idx_rows t).2.2.1.1
  have e1 := (idx_rows t).2.2.1.2
  match a with
  | ⟨0, _⟩ => show win0_2.index t (0 : Fin 2) * 256 + 1 * p.val = t.val * 256 + p.val; rw [e0]; omega
  | ⟨1, _⟩ => show win0_2.index t (1 : Fin 2) * 512 + 1 * k.val = k.val; rw [e1]; omega

theorem blk_wih (c : Dev nD) (t : Fin cfg0.N) : (iblk m c 3 t : S512x2048.Idx → EReal) = m ((c : Thread nD τ).loc main_arg3) := by
  funext y
  show (V m c main_v0 : S512x2048.Idx → EReal) (((cfg0.win 3).blk t).view.emb y) = _
  rw [V_wih]
  refine congrArg _ (funext fun a => Fin.ext ?_)
  have e0 := (idx_whole t).1.1
  have e1 := (idx_whole t).1.2
  match a with
  | ⟨0, _⟩ => show win0_3.index t (0 : Fin 2) * 512 + 1 * (y 0).val = (y 0).val; rw [e0]; omega
  | ⟨1, _⟩ => show win0_3.index t (1 : Fin 2) * 2048 + 1 * (y 1).val = (y 1).val; rw [e1]; omega

theorem blk_whh (c : Dev nD) (t : Fin cfg0.N) : (iblk m c 4 t : S512x2048.Idx → EReal) = m ((c : Thread nD τ).loc main_arg4) := by
  funext y
  show (V m c main_v1 : S512x2048.Idx → EReal) (((cfg0.win 4).blk t).view.emb y) = _
  rw [V_whh]
  refine congrArg _ (funext fun a => Fin.ext ?_)
  have e0 := (idx_whole t).2.1.1
  have e1 := (idx_whole t).2.1.2
  match a with
  | ⟨0, _⟩ => show win0_4.index t (0 : Fin 2) * 512 + 1 * (y 0).val = (y 0).val; rw [e0]; omega
  | ⟨1, _⟩ => show win0_4.index t (1 : Fin 2) * 2048 + 1 * (y 1).val = (y 1).val; rw [e1]; omega

theorem blk_g5 (c : Dev nD) (t : Fin cfg0.N) (n : Fin 2048) : (iblk m c 5 t : S1x2048.Idx → EReal) (ix2 (0 : Fin 1) n)
    = (m ((c : Thread nD τ).loc main_arg5) : S2048.Idx → EReal) (ix1 n) := by
  show (V m c main_v2 : S1x2048.Idx → EReal) (((cfg0.win 5).blk t).view.emb (ix2 (0 : Fin 1) n)) = _
  have he : ((cfg0.win 5).blk t).view.emb (ix2 (0 : Fin 1) n) = ix2 (0 : Fin 1) n := by
    funext a; apply Fin.ext
    have e0 := (idx_whole t).2.2.1.1
    have e1 := (idx_whole t).2.2.1.2
    match a with
    | ⟨0, _⟩ => show win0_5.index t (0 : Fin 2) * 1 + 1 * 0 = 0; rw [e0]
    | ⟨1, _⟩ => show win0_5.index t (1 : Fin 2) * 2048 + 1 * n.val = n.val; rw [e1]; omega
  rw [he, V_g5]

theorem blk_g6 (c : Dev nD) (t : Fin cfg0.N) (n : Fin 2048) : (iblk m c 6 t : S1x2048.Idx → EReal) (ix2 (0 : Fin 1) n)
    = (m ((c : Thread nD τ).loc main_arg6) : S2048.Idx → EReal) (ix1 n) := by
  show (V m c main_v3 : S1x2048.Idx → EReal) (((cfg0.win 6).blk t).view.emb (ix2 (0 : Fin 1) n)) = _
  have he : ((cfg0.win 6).blk t).view.emb (ix2 (0 : Fin 1) n) = ix2 (0 : Fin 1) n := by
    funext a; apply Fin.ext
    have e0 := (idx_whole t).2.2.2.1.1
    have e1 := (idx_whole t).2.2.2.1.2
    match a with
    | ⟨0, _⟩ => show win0_6.index t (0 : Fin 2) * 1 + 1 * 0 = 0; rw [e0]
    | ⟨1, _⟩ => show win0_6.index t (1 : Fin 2) * 2048 + 1 * n.val = n.val; rw [e1]; omega
  rw [he, V_g6]

theorem blk_g7 (c : Dev nD) (t : Fin cfg0.N) (n : Fin 2048) : (iblk m c 7 t : S1x2048.Idx → EReal) (ix2 (0 : Fin 1) n)
    = (m ((c : Thread nD τ).loc main_arg7) : S2048.Idx → EReal) (ix1 n) := by
  show (V m c main_v4 : S1x2048.Idx → EReal) (((cfg0.win 7).blk t).view.emb (ix2 (0 : Fin 1) n)) = _
  have he : ((cfg0.win 7).blk t).view.emb (ix2 (0 : Fin 1) n) = ix2 (0 : Fin 1) n := by
    funext a; apply Fin.ext
    have e0 := (idx_whole t).2.2.2.2.1.1
    have e1 := (idx_whole t).2.2.2.2.1.2
    match a with
    | ⟨0, _⟩ => show win0_7.index t (0 : Fin 2) * 1 + 1 * 0 = 0; rw [e0]
    | ⟨1, _⟩ => show win0_7.index t (1 : Fin 2) * 2048 + 1 * n.val = n.val; rw [e1]; omega
  rw [he, V_g7]

theorem blk_g8 (c : Dev nD) (t : Fin cfg0.N) (n : Fin 2048) : (iblk m c 8 t : S1x2048.Idx → EReal) (ix2 (0 : Fin 1) n)
    = (m ((c : Thread nD τ).loc main_arg8) : S2048.Idx → EReal) (ix1 n) := by
  show (V m c main_v5 : S1x2048.Idx → EReal) (((cfg0.win 8).blk t).view.emb (ix2 (0 : Fin 1) n)) = _
  have he : ((cfg0.win 8).blk t).view.emb (ix2 (0 : Fin 1) n) = ix2 (0 : Fin 1) n := by
    funext a; apply Fin.ext
    have e0 := (idx_whole t).2.2.2.2.2.1.1
    have e1 := (idx_whole t).2.2.2.2.2.1.2
    match a with
    | ⟨0, _⟩ => show win0_8.index t (0 : Fin 2) * 1 + 1 * 0 = 0; rw [e0]
    | ⟨1, _⟩ => show win0_8.index t (1 : Fin 2) * 2048 + 1 * n.val = n.val; rw [e1]; omega
  rw [he, V_g8]

theorem blk_g9 (c : Dev nD) (t : Fin cfg0.N) (n : Fin 512) : (iblk m c 9 t : S1x512.Idx → EReal) (ix2 (0 : Fin 1) n)
    = (m ((c : Thread nD τ).loc main_arg9) : S512.Idx → EReal) (ix1 n) := by
  show (V m c main_v6 : S1x512.Idx → EReal) (((cfg0.win 9).blk t).view.emb (ix2 (0 : Fin 1) n)) = _
  have he : ((cfg0.win 9).blk t).view.emb (ix2 (0 : Fin 1) n) = ix2 (0 : Fin 1) n := by
    funext a; apply Fin.ext
    have e0 := (idx_whole t).2.2.2.2.2.2.1.1
    have e1 := (idx_whole t).2.2.2.2.2.2.1.2
    match a with
    | ⟨0, _⟩ => show win0_9.index t (0 : Fin 2) * 1 + 1 * 0 = 0; rw [e0]
    | ⟨1, _⟩ => show win0_9.index t (1 : Fin 2) * 512 + 1 * n.val = n.val; rw [e1]; omega
  rw [he, V_g9]

theorem blk_g10 (c : Dev nD) (t : Fin cfg0.N) (n : Fin 512) : (iblk m c 10 t : S1x512.Idx → EReal) (ix2 (0 : Fin 1) n)
    = (m ((c : Thread nD τ).loc main_arg10) : S512.Idx → EReal) (ix1 n) := by
  show (V m c main_v7 : S1x512.Idx → EReal) (((cfg0.win 10).blk t).view.emb (ix2 (0 : Fin 1) n)) = _
  have he : ((cfg0.win 10).blk t).view.emb (ix2 (0 : Fin 1) n) = ix2 (0 : Fin 1) n := by
    funext a; apply Fin.ext
    have e0 := (idx_whole t).2.2.2.2.2.2.2.1
    have e1 := (idx_whole t).2.2.2.2.2.2.2.2
    match a with
    | ⟨0, _⟩ => show win0_10.index t (0 : Fin 2) * 1 + 1 * 0 = 0; rw [e0]
    | ⟨1, _⟩ => show win0_10.index t (1 : Fin 2) * 512 + 1 * n.val = n.val; rw [e1]; omega
  rw [he, V_g10]

/-! ## The two result arrays as the specification of the arguments -/

/-- The cell states the row specification gives for core `c`'s argument arrays. -/
abbrev cArr (c : Dev nD) : S16384x512.Idx → EReal :=
  Cspec (lnRsqrt cnt2048 epsLN) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The hidden states likewise. -/
abbrev hArr (c : Dev nD) : S16384x512.Idx → EReal :=
  Hspec (lnRsqrt cnt2048 epsLN) (lnRsqrt cnt512 epsLN) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## What a point writes back -/

/-- Point `t` writes back, into the cell-state result, rows `256·t …` of the specification. -/
theorem flushed12_eq (c : Dev nD) (t : Fin cfg0.N) :
    (dats m 0 c).flushed 12 t = ((cfg0.win 12).blk t).view.read (Elt Ideal) (cArr m c) := by
  rw [flushed12]
  unfold out0_12
  rw [View.canon_unit_zero hz]
  simp only [View.ld_unit_zero (S := S256x512) hz, View.ld_unit_zero (S := S512x2048) hz, View.ld_unit_zero (S := S1x2048) hz]
  funext j
  have hj0 : (j 0).val < 256 := (j 0).isLt
  have hj1 : (j 1).val < 512 := (j 1).isLt
  show k0_pay6 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t) j
    = cArr m c (((cfg0.win 12).blk t).view.emb j)
  have hjj : (j : S256x512.Idx) = ix2 (⟨(j 0).val, hj0⟩ : Fin 256) (⟨(j 1).val, hj1⟩ : Fin 512) := by
    funext a
    match a with
    | ⟨0, _⟩ => rfl
    | ⟨1, _⟩ => rfl
  have hemb : ((cfg0.win 12).blk t).view.emb j = ix2 (rowOf t ⟨(j 0).val, hj0⟩) (⟨(j 1).val, hj1⟩ : Fin 512) := by
    funext a; apply Fin.ext
    have e0 := (idx_rows t).2.2.2.2.1
    have e1 := (idx_rows t).2.2.2.2.2
    match a with
    | ⟨0, _⟩ => show win0_12.index t (0 : Fin 2) * 256 + 1 * (j 0).val = t.val * 256 + (j 0).val; rw [e0]; omega
    | ⟨1, _⟩ => show win0_12.index t (1 : Fin 2) * 512 + 1 * (j 1).val = (j 1).val; rw [e1]; omega
  have hx : (fun k => (iblk m c 0 t : S256x512.Idx → EReal) (ix2 (⟨(j 0).val, hj0⟩ : Fin 256) k))
      = fun k => ((m ((c : Thread nD τ).loc main_arg0)) : S16384x512.Idx → EReal) (ix2 (rowOf t ⟨(j 0).val, hj0⟩) k) := funext fun k => blk_x m c t _ k
  have hh : (fun k => (iblk m c 1 t : S256x512.Idx → EReal) (ix2 (⟨(j 0).val, hj0⟩ : Fin 256) k))
      = fun k => ((m ((c : Thread nD τ).loc main_arg1)) : S16384x512.Idx → EReal) (ix2 (rowOf t ⟨(j 0).val, hj0⟩) k) := funext fun k => blk_h m c t _ k
  have hc : (fun k => (iblk m c 2 t : S256x512.Idx → EReal) (ix2 (⟨(j 0).val, hj0⟩ : Fin 256) k))
      = fun k => ((m ((c : Thread nD τ).loc main_arg2)) : S16384x512.Idx → EReal) (ix2 (rowOf t ⟨(j 0).val, hj0⟩) k) := funext fun k => blk_c m c t _ k
  have h5 : (fun k => (iblk m c 5 t : S1x2048.Idx → EReal) (ix2 (0 : Fin 1) k))
      = fun k => ((m ((c : Thread nD τ).loc main_arg5)) : S2048.Idx → EReal) (ix1 k) := funext fun k => blk_g5 m c t k
  have h6 : (fun k => (iblk m c 6 t : S1x2048.Idx → EReal) (ix2 (0 : Fin 1) k))
      = fun k => ((m ((c : Thread nD τ).loc main_arg6)) : S2048.Idx → EReal) (ix1 k) := funext fun k => blk_g6 m c t k
  have h7 : (fun k => (iblk m c 7 t : S1x2048.Idx → EReal) (ix2 (0 : Fin 1) k))
      = fun k => ((m ((c : Thread nD τ).loc main_arg7)) : S2048.Idx → EReal) (ix1 k) := funext fun k => blk_g7 m c t k
  have h8 : (fun k => (iblk m c 8 t : S1x2048.Idx → EReal) (ix2 (0 : Fin 1) k))
      = fun k => ((m ((c : Thread nD τ).loc main_arg8)) : S2048.Idx → EReal) (ix1 k) := funext fun k => blk_g8 m c t k
  rw [hemb]
  refine (congrArg (k0_pay6 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t)) hjj).trans ?_
  refine (cellBlock_apply (iblk m c 0 t) (iblk m c 1 t) (iblk m c 2 t) (iblk m c 3 t) (iblk m c 4 t) (iblk m c 5 t) (iblk m c 6 t) (iblk m c 7 t) (iblk m c 8 t)
    ⟨(j 0).val, hj0⟩ ⟨(j 1).val, hj1⟩).trans ?_
  rw [hx, hh, hc, h5, h6, h7, h8, blk_wih, blk_whh]
  rfl

/-- Point `t` writes back, into the hidden-state result, rows `256·t …` of the specification. -/
theorem flushed11_eq (c : Dev nD) (t : Fin cfg0.N) :
    (dats m 0 c).flushed 11 t = ((cfg0.win 11).blk t).view.read (Elt Ideal) (hArr m c) := by
  rw [flushed11]
  unfold out0_11
  rw [View.canon_unit_zero hz]
  simp only [View.ld_unit_zero (S := S256x512) hz, View.ld_unit_zero (S := S512x2048) hz, View.ld_unit_zero (S := S1x2048) hz, View.ld_unit_zero (S := S1x512) hz]
  funext j
  have hj0 : (j 0).val < 256 := (j 0).isLt
  have hj1 : (j 1).val < 512 := (j 1).isLt
  show k0_pay1 (F := Ideal) (k0_pay5 (F := Ideal) (k0_pay2 (F := Ideal) (iblk m c 1 t) (iblk m c 4 t)) (k0_pay3 (F := Ideal) (iblk m c 0 t) (iblk m c 3 t) (iblk m c 5 t) (iblk m c 6 t)) (iblk m c 7 t) (iblk m c 8 t)) (k0_pay6 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t)) (k0_pay7 (F := Ideal) (iblk m c 9 t)) (k0_pay8 (F := Ideal) (iblk m c 10 t)) (k0_pay9 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t)) j
    = hArr m c (((cfg0.win 11).blk t).view.emb j)
  have hjj : (j : S256x512.Idx) = ix2 (⟨(j 0).val, hj0⟩ : Fin 256) (⟨(j 1).val, hj1⟩ : Fin 512) := by
    funext a
    match a with
    | ⟨0, _⟩ => rfl
    | ⟨1, _⟩ => rfl
  have hemb : ((cfg0.win 11).blk t).view.emb j = ix2 (rowOf t ⟨(j 0).val, hj0⟩) (⟨(j 1).val, hj1⟩ : Fin 512) := by
    funext a; apply Fin.ext
    have e0 := (idx_rows t).2.2.2.1.1
    have e1 := (idx_rows t).2.2.2.1.2
    match a with
    | ⟨0, _⟩ => show win0_11.index t (0 : Fin 2) * 256 + 1 * (j 0).val = t.val * 256 + (j 0).val; rw [e0]; omega
    | ⟨1, _⟩ => show win0_11.index t (1 : Fin 2) * 512 + 1 * (j 1).val = (j 1).val; rw [e1]; omega
  have hx : (fun k => (iblk m c 0 t : S256x512.Idx → EReal) (ix2 (⟨(j 0).val, hj0⟩ : Fin 256) k))
      = fun k => ((m ((c : Thread nD τ).loc main_arg0)) : S16384x512.Idx → EReal) (ix2 (rowOf t ⟨(j 0).val, hj0⟩) k) := funext fun k => blk_x m c t _ k
  have hh : (fun k => (iblk m c 1 t : S256x512.Idx → EReal) (ix2 (⟨(j 0).val, hj0⟩ : Fin 256) k))
      = fun k => ((m ((c : Thread nD τ).loc main_arg1)) : S16384x512.Idx → EReal) (ix2 (rowOf t ⟨(j 0).val, hj0⟩) k) := funext fun k => blk_h m c t _ k
  have hc : (fun k => (iblk m c 2 t : S256x512.Idx → EReal) (ix2 (⟨(j 0).val, hj0⟩ : Fin 256) k))
      = fun k => ((m ((c : Thread nD τ).loc main_arg2)) : S16384x512.Idx → EReal) (ix2 (rowOf t ⟨(j 0).val, hj0⟩) k) := funext fun k => blk_c m c t _ k
  have h5 : (fun k => (iblk m c 5 t : S1x2048.Idx → EReal) (ix2 (0 : Fin 1) k))
      = fun k => ((m ((c : Thread nD τ).loc main_arg5)) : S2048.Idx → EReal) (ix1 k) := funext fun k => blk_g5 m c t k
  have h6 : (fun k => (iblk m c 6 t : S1x2048.Idx → EReal) (ix2 (0 : Fin 1) k))
      = fun k => ((m ((c : Thread nD τ).loc main_arg6)) : S2048.Idx → EReal) (ix1 k) := funext fun k => blk_g6 m c t k
  have h7 : (fun k => (iblk m c 7 t : S1x2048.Idx → EReal) (ix2 (0 : Fin 1) k))
      = fun k => ((m ((c : Thread nD τ).loc main_arg7)) : S2048.Idx → EReal) (ix1 k) := funext fun k => blk_g7 m c t k
  have h8 : (fun k => (iblk m c 8 t : S1x2048.Idx → EReal) (ix2 (0 : Fin 1) k))
      = fun k => ((m ((c : Thread nD τ).loc main_arg8)) : S2048.Idx → EReal) (ix1 k) := funext fun k => blk_g8 m c t k
  have h9 : (fun k => (iblk m c 9 t : S1x512.Idx → EReal) (ix2 (0 : Fin 1) k))
      = fun k => ((m ((c : Thread nD τ).loc main_arg9)) : S512.Idx → EReal) (ix1 k) := funext fun k => blk_g9 m c t k
  have h10 : (fun k => (iblk m c 10 t : S1x512.Idx → EReal) (ix2 (0 : Fin 1) k))
      = fun k => ((m ((c : Thread nD τ).loc main_arg10)) : S512.Idx → EReal) (ix1 k) := funext fun k => blk_g10 m c t k
  rw [hemb]
  refine (congrArg (k0_pay1 (F := Ideal) (k0_pay5 (F := Ideal) (k0_pay2 (F := Ideal) (iblk m c 1 t) (iblk m c 4 t)) (k0_pay3 (F := Ideal) (iblk m c 0 t) (iblk m c 3 t) (iblk m c 5 t) (iblk m c 6 t)) (iblk m c 7 t) (iblk m c 8 t)) (k0_pay6 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t)) (k0_pay7 (F := Ideal) (iblk m c 9 t)) (k0_pay8 (F := Ideal) (iblk m c 10 t)) (k0_pay9 (F := Ideal) (iblk m c 2 t) (k0_pay2 (F := Ideal) (iblk m c 1 t) (iblk m c 4 t)) (k0_pay3 (F := Ideal) (iblk m c 0 t) (iblk m c 3 t) (iblk m c 5 t) (iblk m c 6 t)) (iblk m c 7 t) (iblk m c 8 t))) hjj).trans ?_
  refine (hiddenBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t)
    ⟨(j 0).val, hj0⟩ ⟨(j 1).val, hj1⟩).trans ?_
  rw [hx, hh, hc, h5, h6, h7, h8, h9, h10, blk_wih, blk_whh]
  rfl

/-! ## The 64 blocks tile each result -/

/-- An index of the result is in point `t`'s block iff each coordinate is in the block's range on its axis. -/
theorem mem_blk11 (t : Fin cfg0.N) (i : S16384x512.Idx) :
    i ∈ ((cfg0.win 11).blk t).view.set ↔ ∀ a : Fin 2, win0_11.index t a * S256x512.size a ≤ (i a).val
      ∧ (i a).val < win0_11.index t a * S256x512.size a + S256x512.size a := by
  show i ∈ ((View.whole main_v8_0).slice (win0_11.rect t)).set ↔ _
  rw [View.set_slice_whole, Rect.mem_set_unit]
  exact Iff.rfl

/-- Every index of the result lies in the block of the point its row falls to: row `r` belongs to point `r / 256`. -/
theorem cover11 (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  have hN : cfg0.N = 64 := N_0
  have ht : (i 0).val / 256 < cfg0.N := by rw [hN]; omega
  refine ⟨⟨(i 0).val / 256, ht⟩, flush0_11 _, ?_⟩
  rw [mem_blk11]
  have e0 := (idx_rows ⟨(i 0).val / 256, ht⟩).2.2.2.1.1
  have e1 := (idx_rows ⟨(i 0).val / 256, ht⟩).2.2.2.1.2
  intro a
  match a with
  | ⟨0, _⟩ =>
    show win0_11.index ⟨(i 0).val / 256, ht⟩ (0 : Fin 2) * 256 ≤ (i 0).val
      ∧ (i 0).val < win0_11.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_11.index ⟨(i 0).val / 256, ht⟩ (1 : Fin 2) * 512 ≤ (i 1).val
      ∧ (i 1).val < win0_11.index ⟨(i 0).val / 256, ht⟩ (1 : Fin 2) * 512 + 512
    rw [e1]
    omega

/-- An index of the result is in point `t`'s block iff each coordinate is in the block's range on its axis. -/
theorem mem_blk12 (t : Fin cfg0.N) (i : S16384x512.Idx) :
    i ∈ ((cfg0.win 12).blk t).view.set ↔ ∀ a : Fin 2, win0_12.index t a * S256x512.size a ≤ (i a).val
      ∧ (i a).val < win0_12.index t a * S256x512.size a + S256x512.size a := by
  show i ∈ ((View.whole main_v8_1).slice (win0_12.rect t)).set ↔ _
  rw [View.set_slice_whole, Rect.mem_set_unit]
  exact Iff.rfl

/-- Every index of the result lies in the block of the point its row falls to: row `r` belongs to point `r / 256`. -/
theorem cover12 (i : S16384x512.Idx) :
    ∃ t : Fin cfg0.N, (cfg0.win 12).flush t = true ∧ i ∈ ((cfg0.win 12).blk t).view.set := by
  have hi0 : (i 0).val < 16384 := (i 0).isLt
  have hi1 : (i 1).val < 512 := (i 1).isLt
  have hN : cfg0.N = 64 := N_0
  have ht : (i 0).val / 256 < cfg0.N := by rw [hN]; omega
  refine ⟨⟨(i 0).val / 256, ht⟩, flush0_12 _, ?_⟩
  rw [mem_blk12]
  have e0 := (idx_rows ⟨(i 0).val / 256, ht⟩).2.2.2.2.1
  have e1 := (idx_rows ⟨(i 0).val / 256, ht⟩).2.2.2.2.2
  intro a
  match a with
  | ⟨0, _⟩ =>
    show win0_12.index ⟨(i 0).val / 256, ht⟩ (0 : Fin 2) * 256 ≤ (i 0).val
      ∧ (i 0).val < win0_12.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_12.index ⟨(i 0).val / 256, ht⟩ (1 : Fin 2) * 512 ≤ (i 1).val
      ∧ (i 1).val < win0_12.index ⟨(i 0).val / 256, ht⟩ (1 : Fin 2) * 512 + 512
    rw [e1]
    omega

/-- So the hidden-state result ends as the specification of the arguments, whole. -/
theorem final11 (c : Dev nD) : (dats m 0 c).arrAt 11 cfg0.N = hArr m c :=
  (dats m 0 c).arrAt_eq_of_cover 11 (hArr m c) (fun t _ => flushed11_eq m c t) cover11

/-- And the cell-state result likewise. -/
theorem final12 (c : Dev nD) : (dats m 0 c).arrAt 12 cfg0.N = cArr m c :=
  (dats m 0 c).arrAt_eq_of_cover 12 (cArr m c) (fun t _ => flushed12_eq m c t) cover12

/-! ## The run -/

/-- Every weakly fair execution of the idealized kernel terminates with its two results at the row specification (with the
    reciprocal square root as a factor) of the argument arrays, and the arguments unchanged. -/
theorem run_spec : θ_run (defs (F := Ideal)) (onTc (τ := τ) (main (F := Ideal))) ⟨m, fun _ => 0, ρ⟩ fun r => ∀ c : Dev nD,
      r.2.mem ((c : Thread nD τ).loc main_v8_0) = hArr m c
      ∧ r.2.mem ((c : Thread nD τ).loc main_v8_1) = cArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (run_blocks m ρ)

end Cert.KernelIdeal.KArr

end
-- ==== Proof.RefRows.lean ====
/-
  The reference program of the LayerNorm-LSTM cell, read at an index.

  The generated run states what every execution of the reference leaves in its two result arrays as whole-array terms
  over the argument arrays. Here each stage of those terms is read at an index `(b, n)` and identified with the row
  specification of row `b`: the two products `x · W`, the row means and variances, the two LayerNorms and their sum,
  the four runs of 512 gate columns, the new cell state and, through the cell LayerNorm, the new hidden state.
-/
import proofs.«104600_j10608569221488_1_alg».proof.Proof.Spec
import proofs.«104600_j10608569221488_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.ReferenceIdeal.RefValue

open Cert.ReferenceIdeal Cert.ReferenceIdeal.Gen Cert.ReferenceIdeal.Value Cert.LstmSpec Idealize.ShloMosaic
  Idealize.ShloMosaic.ValueIdx Idealize.ShloMosaic.TcCoe Idealize.SL.Sem Idealize.ShloMosaic.StableHlo

/-! ## The two products -/

/-- The contraction index of the product is its one coordinate, below 512. -/
def cEquiv : dot_S16384x512_S512x2048_S16384x2048_1_0_0_1_n_n.contr.Idx ≃ Fin 512 :=
  contrEquiv1 dot_S16384x512_S512x2048_S16384x2048_1_0_0_1_n_n 512 rfl rfl

theorem lhs_0 (b : Fin 16384) (n : Fin 2048) (k : dot_S16384x512_S512x2048_S16384x2048_1_0_0_1_n_n.contr.Idx) :
    (dot_S16384x512_S512x2048_S16384x2048_1_0_0_1_n_n.lhsIdx (ix2 b n) k 0).val = b.val := rfl

theorem lhs_1 (b : Fin 16384) (n : Fin 2048) (k : Fin 512) :
    (dot_S16384x512_S512x2048_S16384x2048_1_0_0_1_n_n.lhsIdx (ix2 b n) (cEquiv.symm k) 1).val = k.val :=
  (dot_S16384x512_S512x2048_S16384x2048_1_0_0_1_n_n.lhsIdx_val_of_single (cl := 1) rfl (ix2 b n) (cEquiv.symm k)).trans
    (contrEquiv1_symm_val dot_S16384x512_S512x2048_S16384x2048_1_0_0_1_n_n 512 rfl rfl k)

theorem rhs_0 (b : Fin 16384) (n : Fin 2048) (k : Fin 512) :
    (dot_S16384x512_S512x2048_S16384x2048_1_0_0_1_n_n.rhsIdx (ix2 b n) (cEquiv.symm k) 0).val = k.val :=
  (dot_S16384x512_S512x2048_S16384x2048_1_0_0_1_n_n.rhsIdx_val_of_single (cr := 0) rfl (ix2 b n) (cEquiv.symm k)).trans
    (contrEquiv1_symm_val dot_S16384x512_S512x2048_S16384x2048_1_0_0_1_n_n 512 rfl rfl k)

theorem rhs_1 (b : Fin 16384) (n : Fin 2048) (k : dot_S16384x512_S512x2048_S16384x2048_1_0_0_1_n_n.contr.Idx) :
    (dot_S16384x512_S512x2048_S16384x2048_1_0_0_1_n_n.rhsIdx (ix2 b n) k 1).val = n.val := rfl

theorem lhs_ix (b : Fin 16384) (n : Fin 2048) (k : Fin 512) :
    dot_S16384x512_S512x2048_S16384x2048_1_0_0_1_n_n.lhsIdx (ix2 b n) (cEquiv.symm k) = ix2 b k := by
  funext a
  match a with
  | ⟨0, _⟩ => exact Fin.ext (lhs_0 b n _)
  | ⟨1, _⟩ => exact Fin.ext (lhs_1 b n k)

theorem rhs_ix (b : Fin 16384) (n : Fin 2048) (k : Fin 512) :
    dot_S16384x512_S512x2048_S16384x2048_1_0_0_1_n_n.rhsIdx (ix2 b n) (cEquiv.symm k) = ix2 k n := by
  funext a
  match a with
  | ⟨0, _⟩ => exact Fin.ext (rhs_0 b n k)
  | ⟨1, _⟩ => exact Fin.ext (rhs_1 b n _)

/-- The product of the batch array with a weight matrix, at `(b, n)`: row `b` times column `n`. -/
theorem dot_apply (X : FVec Ideal S16384x512 .f32) (W : FVec Ideal S512x2048 .f32) (b : Fin 16384) (n : Fin 2048) :
    Host.dotGeneral (F := Ideal) dot_S16384x512_S512x2048_S16384x2048_1_0_0_1_n_n none X W (ix2 b n)
      = rowMat (fun k => X (ix2 b k)) W n := by
  refine (Ideal.dotGeneral_apply _ _ _ X W (ix2 b n)).trans ?_
  unfold rowMat
  rw [← Equiv.sum_comp cEquiv.symm]
  exact Finset.sum_congr rfl fun k _ => by rw [lhs_ix, rhs_ix]

/-! ## Layout operations at an index -/

/-- A vector of 16384 entries laid out as a column: at `(b, 0)` it is entry `b`. -/
theorem col_apply {α : Type} (v : S16384.Idx → α) (b : Fin 16384) :
    broadcastInDim S16384x1 ![0] bcast_S16384_S16384x1_0 v (ix2 b (0 : Fin 1)) = v (ix1 b) :=
  broadcastInDim_apply _ _ v (ix2 b (0 : Fin 1)) (ix1 b) fun a => by
    match a with
    | ⟨0, _⟩ => rfl

/-- A column repeated along 2048 columns: at `(b, n)` it is the column's entry `b`. -/
theorem bcol2048_apply {α : Type} (c : S16384x1.Idx → α) (b : Fin 16384) (n : Fin 2048) :
    broadcastInDim S16384x2048 ![0, 1] bcast_S16384x1_S16384x2048_0_1 c (ix2 b n) = c (ix2 b (0 : Fin 1)) :=
  broadcastInDim_apply _ _ c (ix2 b n) (ix2 b (0 : Fin 1)) fun a => by
    match a with
    | ⟨0, _⟩ => rfl
    | ⟨1, _⟩ => rfl

/-- A column repeated along 512 columns: at `(b, q)` it is the column's entry `b`. -/
theorem bcol512_apply {α : Type} (c : S16384x1.Idx → α) (b : Fin 16384) (q : Fin 512) :
    broadcastInDim S16384x512 ![0, 1] bcast_S16384x1_S16384x512_0_1 c (ix2 b q) = c (ix2 b (0 : Fin 1)) :=
  broadcastInDim_apply _ _ c (ix2 b q) (ix2 b (0 : Fin 1)) fun a => by
    match a with
    | ⟨0, _⟩ => rfl
    | ⟨1, _⟩ => rfl

/-- A vector of 2048 entries repeated along 16384 rows: at `(b, n)` it is entry `n`. -/
theorem brow2048_apply {α : Type} (g : S2048.Idx → α) (b : Fin 16384) (n : Fin 2048) :
    broadcastInDim S16384x2048 ![0, 1] bcast_S1x2048_S16384x2048_0_1 (broadcastInDim S1x2048 ![1] bcast_S2048_S1x2048_1 g) (ix2 b n)
      = g (ix1 n) :=
  (broadcastInDim_apply _ _ _ (ix2 b n) (ix2 (0 : Fin 1) n) fun a => by
    match a with
    | ⟨0, _⟩ => rfl
    | ⟨1, _⟩ => rfl).trans
  (broadcastInDim_apply _ _ g (ix2 (0 : Fin 1) n) (ix1 n) fun a => by
    match a with
    | ⟨0, _⟩ => rfl)

/-- A vector of 512 entries repeated along 16384 rows: at `(b, q)` it is entry `q`. -/
theorem brow512_apply {α : Type} (g : S512.Idx → α) (b : Fin 16384) (q : Fin 512) :
    broadcastInDim S16384x512 ![0, 1] bcast_S1x512_S16384x512_0_1 (broadcastInDim S1x512 ![1] bcast_S512_S1x512_1 g) (ix2 b q)
      = g (ix1 q) :=
  (broadcastInDim_apply _ _ _ (ix2 b q) (ix2 (0 : Fin 1) q) fun a => by
    match a with
    | ⟨0, _⟩ => rfl
    | ⟨1, _⟩ => rfl).trans
  (broadcastInDim_apply _ _ g (ix2 (0 : Fin 1) q) (ix1 q) fun a => by
    match a with
    | ⟨0, _⟩ => rfl)

/-! ## Row sums -/

theorem lift2048 (h : Shape.Reduces S16384x2048 [1] S16384) (b : Fin 16384) (k : Fin 2048) :
    h.lift (ix1 b) k = ix2 b k := by
  funext a
  match a with
  | ⟨0, _⟩ => exact Fin.ext rfl
  | ⟨1, _⟩ => exact Fin.ext rfl

theorem lift512 (h : Shape.Reduces S16384x512 [1] S16384) (b : Fin 16384) (k : Fin 512) :
    h.lift (ix1 b) k = ix2 b k := by
  funext a
  match a with
  | ⟨0, _⟩ => exact Fin.ext rfl
  | ⟨1, _⟩ => exact Fin.ext rfl

/-- The sum along the rows of a `[16384, 2048]` array from the zero word, at `b`: the sum of row `b`. -/
theorem rowsum2048_apply (Z : FVec Ideal S16384x2048 .f32) (b : Fin 16384) :
    Host.reduceAdd (F := Ideal) Z (constant (F := Ideal) S_ .f32 0x00000000#32) reducesTo_S16384x2048_S16384_d1 h_S_ (ix1 b)
      = ∑ n : Fin 2048, Z (ix2 b n) := by
  have h : Shape.Reduces S16384x2048 [1] S16384 := by decide
  refine (Ideal.hostReduceAdd_single reducesTo_S16384x2048_S16384_d1 h Z _ (ix1 b)).trans ?_
  refine (congrArg (· + _) Ideal.ofBits_zero_f32).trans ?_
  rw [zero_add]
  exact Finset.sum_congr rfl fun k _ => congrArg Z (lift2048 h b k)

/-- The sum along the rows of a `[16384, 512]` array from the zero word, at `b`: the sum of row `b`. -/
theorem rowsum512_apply (Z : FVec Ideal S16384x512 .f32) (b : Fin 16384) :
    Host.reduceAdd (F := Ideal) Z (constant (F := Ideal) S_ .f32 0x00000000#32) reducesTo_S16384x512_S16384_d1 h_S_ (ix1 b)
      = ∑ q : Fin 512, Z (ix2 b q) := by
  have h : Shape.Reduces S16384x512 [1] S16384 := by decide
  refine (Ideal.hostReduceAdd_single reducesTo_S16384x512_S16384_d1 h Z _ (ix1 b)).trans ?_
  refine (congrArg (· + _) Ideal.ofBits_zero_f32).trans ?_
  rw [zero_add]
  exact Finset.sum_congr rfl fun k _ => congrArg Z (lift512 h b k)

/-- The row sums of a `[16384, 2048]` array over a count, as a column: at `(b, 0)` the mean of row `b`. -/
theorem mean2048_apply (Z : FVec Ideal S16384x2048 .f32) (w : BitVec 32) (b : Fin 16384) :
    Host.divf (F := Ideal)
        (broadcastInDim S16384x1 ![0] bcast_S16384_S16384x1_0
          (Host.reduceAdd (F := Ideal) Z (constant (F := Ideal) S_ .f32 0x00000000#32) reducesTo_S16384x2048_S16384_d1 h_S_))
        (broadcastInDim S16384x1 ![] bcast_S_S16384x1 (constant (F := Ideal) S_ .f32 w)) (ix2 b (0 : Fin 1))
      = rowMean (Ideal.ofBits .f32 w) (fun n => Z (ix2 b n)) := by
  show Ideal.div (broadcastInDim S16384x1 ![0] bcast_S16384_S16384x1_0
          (Host.reduceAdd (F := Ideal) Z (constant (F := Ideal) S_ .f32 0x00000000#32) reducesTo_S16384x2048_S16384_d1 h_S_)
          (ix2 b (0 : Fin 1))) (Ideal.ofBits .f32 w) = _
  rw [col_apply, rowsum2048_apply]
  rfl

/-- The row sums of a `[16384, 512]` array over a count, as a column: at `(b, 0)` the mean of row `b`. -/
theorem mean512_apply (Z : FVec Ideal S16384x512 .f32) (w : BitVec 32) (b : Fin 16384) :
    Host.divf (F := Ideal)
        (broadcastInDim S16384x1 ![0] bcast_S16384_S16384x1_0
          (Host.reduceAdd (F := Ideal) Z (constant (F := Ideal) S_ .f32 0x00000000#32) reducesTo_S16384x512_S16384_d1 h_S_))
        (broadcastInDim S16384x1 ![] bcast_S_S16384x1 (constant (F := Ideal) S_ .f32 w)) (ix2 b (0 : Fin 1))
      = rowMean (Ideal.ofBits .f32 w) (fun q => Z (ix2 b q)) := by
  show Ideal.div (broadcastInDim S16384x1 ![0] bcast_S16384_S16384x1_0
          (Host.reduceAdd (F := Ideal) Z (constant (F := Ideal) S_ .f32 0x00000000#32) reducesTo_S16384x512_S16384_d1 h_S_)
          (ix2 b (0 : Fin 1))) (Ideal.ofBits .f32 w) = _
  rw [col_apply, rowsum512_apply]
  rfl

/-! ## Elementwise host operations at an index -/

theorem hdivf_apply {s : Shape} (x y : FVec Ideal s .f32) (i : s.Idx) : Host.divf x y i = Ideal.div (x i) (y i) := rfl

theorem hsqrt_apply {s : Shape} (x : FVec Ideal s .f32) (i : s.Idx) : Host.sqrt x i = Ideal.sqrt (x i) := rfl

theorem htanh_apply {s : Shape} (x : FVec Ideal s .f32) (i : s.Idx) : Host.tanh x i = Ideal.tanh (x i) := rfl

/-- The word `0x3F800000` is the float `1.0`. -/
theorem ofBits_one : Ideal.ofBits .f32 0x3F800000#32 = 1 := by
  simp [Ideal.ofBits, Ideal.ieee, -EReal.coe_mul]; norm_num

/-- The quotient `1 / (1 + exp (-x))` the reference spells is the logistic function, entry by entry. -/
theorem sigmoid_apply (X : FVec Ideal S16384x512 .f32) (i : S16384x512.Idx) :
    Host.divf (F := Ideal) (broadcastInDim S16384x512 ![] bcast_S_S16384x512 (constant (F := Ideal) S_ .f32 0x3F800000#32))
        (addf (broadcastInDim S16384x512 ![] bcast_S_S16384x512 (constant (F := Ideal) S_ .f32 0x3F800000#32))
          (Host.exp (Host.negf X))) i
      = Ideal.logistic (X i) := by
  show Ideal.div (Ideal.ofBits .f32 0x3F800000#32) (Ideal.ofBits .f32 0x3F800000#32 + Ideal.exp (-(X i))) = _
  rw [ofBits_one]
  rfl

/-! ## LayerNorm of the rows -/

/-- LayerNorm along the rows of a `[16384, 2048]` array `Z`, as the reference composes it from the column `M` of row
    means and the array `Dv` of deviations: at `(b, n)` it is the LayerNorm of row `b` at `n`. -/
theorem ln2048_apply (Z : FVec Ideal S16384x2048 .f32) (M : FVec Ideal S16384x1 .f32) (Dv : FVec Ideal S16384x2048 .f32)
    (g bt : FVec Ideal S2048 .f32) (b : Fin 16384) (n : Fin 2048)
    (hM : M (ix2 b (0 : Fin 1)) = rowMean cnt2048 (fun k => Z (ix2 b k)))
    (hD : ∀ k : Fin 2048, Dv (ix2 b k) = Z (ix2 b k) - rowMean cnt2048 (fun k => Z (ix2 b k))) :
    addf (mulf (Host.divf (F := Ideal) (subf Z (broadcastInDim S16384x2048 ![0, 1] bcast_S16384x1_S16384x2048_0_1 M))
          (broadcastInDim S16384x2048 ![0, 1] bcast_S16384x1_S16384x2048_0_1
            (Host.sqrt (addf
              (Host.divf (F := Ideal)
                (broadcastInDim S16384x1 ![0] bcast_S16384_S16384x1_0
                  (Host.reduceAdd (F := Ideal) (mulf Dv Dv) (constant (F := Ideal) S_ .f32 0x00000000#32) reducesTo_S16384x2048_S16384_d1 h_S_))
                (broadcastInDim S16384x1 ![] bcast_S_S16384x1 (constant (F := Ideal) S_ .f32 0x45000000#32)))
              (broadcastInDim S16384x1 ![] bcast_S_S16384x1 (constant (F := Ideal) S_ .f32 0x3727C5AC#32))))))
        (broadcastInDim S16384x2048 ![0, 1] bcast_S1x2048_S16384x2048_0_1 (broadcastInDim S1x2048 ![1] bcast_S2048_S1x2048_1 g)))
      (broadcastInDim S16384x2048 ![0, 1] bcast_S1x2048_S16384x2048_0_1 (broadcastInDim S1x2048 ![1] bcast_S2048_S1x2048_1 bt))
      (ix2 b n)
      = lnSqrt cnt2048 epsLN (fun k => Z (ix2 b k)) (fun k => g (ix1 k)) (fun k => bt (ix1 k)) n := by
  have hsq : (fun k : Fin 2048 => (mulf Dv Dv) (ix2 b k))
      = fun k => (Z (ix2 b k) - rowMean cnt2048 (fun k => Z (ix2 b k))) * (Z (ix2 b k) - rowMean cnt2048 (fun k => Z (ix2 b k))) :=
    funext fun k => by rw [mulf_apply, hD k]
  rw [addf_apply, mulf_apply, hdivf_apply, subf_apply, bcol2048_apply, bcol2048_apply, hsqrt_apply, addf_apply, mean2048_apply,
    brow2048_apply, brow2048_apply, hM, hsq]
  rfl

/-- LayerNorm along the rows of a `[16384, 512]` array, likewise. -/
theorem ln512_apply (Z : FVec Ideal S16384x512 .f32) (M : FVec Ideal S16384x1 .f32) (Dv : FVec Ideal S16384x512 .f32)
    (g bt : FVec Ideal S512 .f32) (b : Fin 16384) (q : Fin 512)
    (hM : M (ix2 b (0 : Fin 1)) = rowMean cnt512 (fun k => Z (ix2 b k)))
    (hD : ∀ k : Fin 512, Dv (ix2 b k) = Z (ix2 b k) - rowMean cnt512 (fun k => Z (ix2 b k))) :
    addf (mulf (Host.divf (F := Ideal) (subf Z (broadcastInDim S16384x512 ![0, 1] bcast_S16384x1_S16384x512_0_1 M))
          (broadcastInDim S16384x512 ![0, 1] bcast_S16384x1_S16384x512_0_1
            (Host.sqrt (addf
              (Host.divf (F := Ideal)
                (broadcastInDim S16384x1 ![0] bcast_S16384_S16384x1_0
                  (Host.reduceAdd (F := Ideal) (mulf Dv Dv) (constant (F := Ideal) S_ .f32 0x00000000#32) reducesTo_S16384x512_S16384_d1 h_S_))
                (broadcastInDim S16384x1 ![] bcast_S_S16384x1 (constant (F := Ideal) S_ .f32 0x44000000#32)))
              (broadcastInDim S16384x1 ![] bcast_S_S16384x1 (constant (F := Ideal) S_ .f32 0x3727C5AC#32))))))
        (broadcastInDim S16384x512 ![0, 1] bcast_S1x512_S16384x512_0_1 (broadcastInDim S1x512 ![1] bcast_S512_S1x512_1 g)))
      (broadcastInDim S16384x512 ![0, 1] bcast_S1x512_S16384x512_0_1 (broadcastInDim S1x512 ![1] bcast_S512_S1x512_1 bt))
      (ix2 b q)
      = lnSqrt cnt512 epsLN (fun k => Z (ix2 b k)) (fun k => g (ix1 k)) (fun k => bt (ix1 k)) q := by
  have hsq : (fun k : Fin 512 => (mulf Dv Dv) (ix2 b k))
      = fun k => (Z (ix2 b k) - rowMean cnt512 (fun k => Z (ix2 b k))) * (Z (ix2 b k) - rowMean cnt512 (fun k => Z (ix2 b k))) :=
    funext fun k => by rw [mulf_apply, hD k]
  rw [addf_apply, mulf_apply, hdivf_apply, subf_apply, bcol512_apply, bcol512_apply, hsqrt_apply, addf_apply, mean512_apply,
    brow512_apply, brow512_apply, hM, hsq]
  rfl

/-! ## The stages of the reference at a valuation -/

variable (V0 : Valuation τ sig (Elt Ideal))

/-- The argument arrays at a valuation: the batch inputs `x`, `h`, `c`; the weight matrices; the scale and shift vectors. -/
abbrev aX : FVec Ideal S16384x512 .f32 := V0 (Proc.devRef .tc main_arg0)
abbrev aH : FVec Ideal S16384x512 .f32 := V0 (Proc.devRef .tc main_arg1)
abbrev aC : FVec Ideal S16384x512 .f32 := V0 (Proc.devRef .tc main_arg2)
abbrev aWih : FVec Ideal S512x2048 .f32 := V0 (Proc.devRef .tc main_arg3)
abbrev aWhh : FVec Ideal S512x2048 .f32 := V0 (Proc.devRef .tc main_arg4)
abbrev aGih : FVec Ideal S2048 .f32 := V0 (Proc.devRef .tc main_arg5)
abbrev aBih : FVec Ideal S2048 .f32 := V0 (Proc.devRef .tc main_arg6)
abbrev aGhh : FVec Ideal S2048 .f32 := V0 (Proc.devRef .tc main_arg7)
abbrev aBhh : FVec Ideal S2048 .f32 := V0 (Proc.devRef .tc main_arg8)
abbrev aGc : FVec Ideal S512 .f32 := V0 (Proc.devRef .tc main_arg9)
abbrev aBc : FVec Ideal S512 .f32 := V0 (Proc.devRef .tc main_arg10)

/-- The named stages as arrays of extended reals. -/
abbrev s0 : FVec Ideal S16384x2048 .f32 := res_main_v0 (F := Ideal) V0
abbrev s4 : FVec Ideal S16384x1 .f32 := res_main_v4 (F := Ideal) V0
abbrev s6 : FVec Ideal S16384x2048 .f32 := res_main_v6 (F := Ideal) V0
abbrev s25 : FVec Ideal S16384x2048 .f32 := res_main_v25 (F := Ideal) V0
abbrev s29 : FVec Ideal S16384x1 .f32 := res_main_v29 (F := Ideal) V0
abbrev s31 : FVec Ideal S16384x2048 .f32 := res_main_v31 (F := Ideal) V0
abbrev s50 : FVec Ideal S16384x2048 .f32 := res_main_v50 (F := Ideal) V0
abbrev s76 : FVec Ideal S16384x512 .f32 := res_main_v76 (F := Ideal) V0
abbrev s80 : FVec Ideal S16384x1 .f32 := res_main_v80 (F := Ideal) V0
abbrev s82 : FVec Ideal S16384x512 .f32 := res_main_v82 (F := Ideal) V0

/-- The first product: row `b` of `x` times `W_ih`. -/
theorem v0_row (b : Fin 16384) : (fun n => s0 V0 (ix2 b n)) = rowMat (fun k => aX V0 (ix2 b k)) (aWih V0) :=
  funext fun n => dot_apply (aX V0) (aWih V0) b n

/-- The second product: row `b` of `h` times `W_hh`. -/
theorem v25_row (b : Fin 16384) : (fun n => s25 V0 (ix2 b n)) = rowMat (fun k => aH V0 (ix2 b k)) (aWhh V0) :=
  funext fun n => dot_apply (aH V0) (aWhh V0) b n

/-- The mean column of the first product. -/
theorem v4_apply (b : Fin 16384) : s4 V0 (ix2 b (0 : Fin 1)) = rowMean cnt2048 (fun n => s0 V0 (ix2 b n)) :=
  mean2048_apply (s0 V0) _ b

/-- The mean column of the second product. -/
theorem v29_apply (b : Fin 16384) : s29 V0 (ix2 b (0 : Fin 1)) = rowMean cnt2048 (fun n => s25 V0 (ix2 b n)) :=
  mean2048_apply (s25 V0) _ b

/-- The deviations of the first product from its row means. -/
theorem v6_apply (b : Fin 16384) (n : Fin 2048) :
    s6 V0 (ix2 b n) = s0 V0 (ix2 b n) - rowMean cnt2048 (fun n => s0 V0 (ix2 b n)) :=
  (subf_apply _ _ _).trans (congrArg (s0 V0 (ix2 b n) - ·) ((bcol2048_apply _ b n).trans (v4_apply V0 b)))

/-- The deviations of the second product from its row means. -/
theorem v31_apply (b : Fin 16384) (n : Fin 2048) :
    s31 V0 (ix2 b n) = s25 V0 (ix2 b n) - rowMean cnt2048 (fun n => s25 V0 (ix2 b n)) :=
  (subf_apply _ _ _).trans (congrArg (s25 V0 (ix2 b n) - ·) ((bcol2048_apply _ b n).trans (v29_apply V0 b)))

/-- The gate pre-activations: the sum of the two LayerNorms, at `(b, n)`. -/
theorem v50_apply (b : Fin 16384) (n : Fin 2048) :
    s50 V0 (ix2 b n)
      = gates (lnSqrt cnt2048 epsLN) (fun k => aX V0 (ix2 b k)) (fun k => aH V0 (ix2 b k)) (aWih V0) (aWhh V0)
          (fun k => aGih V0 (ix1 k)) (fun k => aBih V0 (ix1 k)) (fun k => aGhh V0 (ix1 k)) (fun k => aBhh V0 (ix1 k)) n := by
  unfold gates
  rw [← v0_row V0 b, ← v25_row V0 b]
  refine (addf_apply _ _ _).trans (congrArg₂ (· + ·) ?_ ?_)
  · exact ln2048_apply (s0 V0) (s4 V0) (s6 V0) (aGih V0) (aBih V0) b n (v4_apply V0 b) (v6_apply V0 b)
  · exact ln2048_apply (s25 V0) (s29 V0) (s31 V0) (aGhh V0) (aBhh V0) b n (v29_apply V0 b) (v31_apply V0 b)

/-- A run of 512 gate columns from column `o`, at `(b, q)`: the gate pre-activation at column `o + q`. -/
theorem gate_apply (o : ℕ) (ho : o + 512 ≤ 2048) (h : S16384x2048.Slices ![0, o] S16384x512) (b : Fin 16384) (q : Fin 512) :
    extractStridedSlice S16384x512 ![0, o] (s50 V0) h (ix2 b q)
      = gates (lnSqrt cnt2048 epsLN) (fun k => aX V0 (ix2 b k)) (fun k => aH V0 (ix2 b k)) (aWih V0) (aWhh V0)
          (fun k => aGih V0 (ix1 k)) (fun k => aBih V0 (ix1 k)) (fun k => aGhh V0 (ix1 k)) (fun k => aBhh V0 (ix1 k))
          (gIdx o ho q) :=
  (slice2_axis1_apply o (s50 V0) h b q (gIdx o ho q) rfl).trans (v50_apply V0 b _)

/-- The new cell state at `(b, q)`. -/
theorem v76_apply (b : Fin 16384) (q : Fin 512) :
    s76 V0 (ix2 b q)
      = cRow (lnSqrt cnt2048 epsLN) (fun k => aX V0 (ix2 b k)) (fun k => aH V0 (ix2 b k)) (fun k => aC V0 (ix2 b k)) (aWih V0)
          (aWhh V0) (fun k => aGih V0 (ix1 k)) (fun k => aBih V0 (ix1 k)) (fun k => aGhh V0 (ix1 k)) (fun k => aBhh V0 (ix1 k)) q := by
  unfold cRow
  refine (addf_apply _ _ _).trans (congrArg₂ (· + ·) ?_ ?_)
  · refine (mulf_apply _ _ _).trans (congrArg₂ (· * ·) ?_ rfl)
    exact (sigmoid_apply _ _).trans (congrArg Ideal.logistic (gate_apply V0 512 _ _ b q))
  · refine (mulf_apply _ _ _).trans (congrArg₂ (· * ·) ?_ ?_)
    · exact (sigmoid_apply _ _).trans (congrArg Ideal.logistic (gate_apply V0 0 _ _ b q))
    · exact (htanh_apply _ _).trans (congrArg Ideal.tanh (gate_apply V0 1024 _ _ b q))

/-- Row `b` of the new cell state. -/
theorem v76_row (b : Fin 16384) :
    (fun k => s76 V0 (ix2 b k))
      = cRow (lnSqrt cnt2048 epsLN) (fun k => aX V0 (ix2 b k)) (fun k => aH V0 (ix2 b k)) (fun k => aC V0 (ix2 b k)) (aWih V0)
          (aWhh V0) (fun k => aGih V0 (ix1 k)) (fun k => aBih V0 (ix1 k)) (fun k => aGhh V0 (ix1 k)) (fun k => aBhh V0 (ix1 k)) :=
  funext fun k => v76_apply V0 b k

/-- The mean column of the new cell state. -/
theorem v80_apply (b : Fin 16384) : s80 V0 (ix2 b (0 : Fin 1)) = rowMean cnt512 (fun k => s76 V0 (ix2 b k)) :=
  mean512_apply (s76 V0) _ b

/-- The deviations of the new cell state from its row means. -/
theorem v82_apply (b : Fin 16384) (q : Fin 512) :
    s82 V0 (ix2 b q) = s76 V0 (ix2 b q) - rowMean cnt512 (fun k => s76 V0 (ix2 b k)) :=
  (subf_apply _ _ _).trans (congrArg (s76 V0 (ix2 b q) - ·) ((bcol512_apply _ b q).trans (v80_apply V0 b)))

/-- The new hidden state as the reference composes it: the output gate's logistic times the hyperbolic tangent of the cell
    state's LayerNorm. -/
def res_h : FVec Ideal S16384x512 .f32 :=
  mulf (Host.divf (F := Ideal) (broadcastInDim S16384x512 ![] bcast_S_S16384x512 (constant (F := Ideal) S_ .f32 0x3F800000#32))
      (addf (broadcastInDim S16384x512 ![] bcast_S_S16384x512 (constant (F := Ideal) S_ .f32 0x3F800000#32))
        (Host.exp (Host.negf (extractStridedSlice S16384x512 ![0, 1536] (s50 V0) slices_S16384x2048_S16384x512_0_1536)))))
    (Host.tanh (addf (mulf (Host.divf (F := Ideal)
          (subf (s76 V0) (broadcastInDim S16384x512 ![0, 1] bcast_S16384x1_S16384x512_0_1 (s80 V0)))
          (broadcastInDim S16384x512 ![0, 1] bcast_S16384x1_S16384x512_0_1
            (Host.sqrt (addf
              (Host.divf (F := Ideal)
                (broadcastInDim S16384x1 ![0] bcast_S16384_S16384x1_0
                  (Host.reduceAdd (F := Ideal) (mulf (s82 V0) (s82 V0)) (constant (F := Ideal) S_ .f32 0x00000000#32) reducesTo_S16384x512_S16384_d1 h_S_))
                (broadcastInDim S16384x1 ![] bcast_S_S16384x1 (constant (F := Ideal) S_ .f32 0x44000000#32)))
              (broadcastInDim S16384x1 ![] bcast_S_S16384x1 (constant (F := Ideal) S_ .f32 0x3727C5AC#32))))))
        (broadcastInDim S16384x512 ![0, 1] bcast_S1x512_S16384x512_0_1 (broadcastInDim S1x512 ![1] bcast_S512_S1x512_1 (aGc V0))))
      (broadcastInDim S16384x512 ![0, 1] bcast_S1x512_S16384x512_0_1 (broadcastInDim S1x512 ![1] bcast_S512_S1x512_1 (aBc V0)))))

/-- The new hidden state at `(b, q)`. -/
theorem vh_apply (b : Fin 16384) (q : Fin 512) :
    res_h V0 (ix2 b q)
      = hRow (lnSqrt cnt2048 epsLN) (lnSqrt cnt512 epsLN) (fun k => aX V0 (ix2 b k)) (fun k => aH V0 (ix2 b k))
          (fun k => aC V0 (ix2 b k)) (aWih V0) (aWhh V0) (fun k => aGih V0 (ix1 k)) (fun k => aBih V0 (ix1 k))
          (fun k => aGhh V0 (ix1 k)) (fun k => aBhh V0 (ix1 k)) (fun k => aGc V0 (ix1 k)) (fun k => aBc V0 (ix1 k)) q := by
  unfold hRow res_h
  rw [← v76_row V0 b]
  refine (mulf_apply _ _ _).trans (congrArg₂ (· * ·) ?_ ?_)
  · exact (sigmoid_apply _ _).trans (congrArg Ideal.logistic (gate_apply V0 1536 _ _ b q))
  · refine (htanh_apply _ _).trans (congrArg Ideal.tanh ?_)
    exact ln512_apply (s76 V0) (s80 V0) (s82 V0) (aGc V0) (aBc V0) b q (v80_apply V0 b) (v82_apply V0 b)

/-! ## The two results are the row specification -/

/-- The reference's cell state array is the specification's, index by index. -/
theorem c_apply (b : Fin 16384) (q : Fin 512) :
    (res_main_v76 (F := Ideal) V0 : FVec Ideal S16384x512 .f32) (ix2 b q)
      = Cspec (lnSqrt cnt2048 epsLN) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (ix2 b q) :=
  v76_apply V0 b q

/-- The reference's hidden state array is the specification's, index by index. -/
theorem h_apply (b : Fin 16384) (q : Fin 512) :
    res_h V0 (ix2 b q)
      = Hspec (lnSqrt cnt2048 epsLN) (lnSqrt cnt512 epsLN) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (ix2 b q) :=
  vh_apply V0 b q

omit V0 in
/-- Every execution of the reference ends with the hidden state and the cell state of the row specification in its two
    result arrays, and its arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
          = Hspec (lnSqrt cnt2048 epsLN) (lnSqrt cnt512 epsLN) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v76)
          = Cspec (lnSqrt cnt2048 epsLN) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans (funext fun i => by
        obtain ⟨b, q, rfl⟩ : ∃ (b : Fin 16384) (q : Fin 512), i = ix2 b q :=
          ⟨⟨(i 0).val, idx2_lt0 i⟩, ⟨(i 1).val, idx2_lt1 i⟩, eq_ix2 i⟩
        exact h_apply (launchContents m c) b q),
      (h c).2.1.trans (funext fun i => by
        obtain ⟨b, q, rfl⟩ : ∃ (b : Fin 16384) (q : Fin 512), i = ix2 b q :=
          ⟨⟨(i 0).val, idx2_lt0 i⟩, ⟨(i 1).val, idx2_lt1 i⟩, eq_ix2 i⟩
        exact c_apply (launchContents m c) b q),
      (h c).2.2⟩)
    (run m ρ)

end Cert.ReferenceIdeal.RefValue

end
-- ==== Proof.lean ====
/-
  A LayerNorm-LSTM cell on the TPU against its jnp reference: `Cert.Claim`.

  Both programs compute, for each of 16384 batch rows, the gate pre-activations `LN(x · W_ih) + LN(h_prev · W_hh)`, the
  new cell state `σ(f) · c_prev + σ(i) · tanh(g)` and the new hidden state `σ(o) · tanh(LN(c_new))` (Proof/Spec.lean states
  them one row at a time). They differ in four ways, none of which is a difference on the extended reals:

  * the kernel feeds its matrix unit narrower floats: a change of float format is the identity;
  * the kernel works on 64 blocks of 256 rows where the reference works on whole arrays: every operation is row by row, so a
    block of the result is those rows of the result (Proof/KernelRows.lean reads the body at an index, Proof/KernelArray.lean
    the blocks into the arrays, Proof/RefRows.lean the reference's operations at an index);
  * the kernel's logistic function is one operation, the reference's is spelt `1 / (1 + exp(−x))`: the same function by
    definition;
  * the kernel's LayerNorm multiplies by the reciprocal square root of `variance + ε`, the reference's divides by the square
    root. The variance is a mean of squares `d · d`, never negative on the extended reals (even at the infinities), and `ε`
    is a positive real, so the radicand is positive, and there `a · rsqrt v = a / sqrt v` (Proof/Spec.lean,
    `lnRsqrt_eq_lnSqrt`). Nothing needs the inputs to be finite.

  The three frames are the generated ones (the reference's is its run with the results dropped); the idealized kernel is the
  kernel's own text read at the extended reals, so there is nothing to preserve.
-/
import proofs.«104600_j10608569221488_1_alg».proof.Defs
import proofs.«104600_j10608569221488_1_alg».proof.Proof.Gen.Kernel
import proofs.«104600_j10608569221488_1_alg».proof.Proof.Gen.Kernel.Skeleton
import proofs.«104600_j10608569221488_1_alg».proof.Proof.Gen.Kernel.Launch
import proofs.«104600_j10608569221488_1_alg».proof.Proof.Gen.Kernel.Points
import proofs.«104600_j10608569221488_1_alg».proof.Proof.Gen.Kernel.Frame
import proofs.«104600_j10608569221488_1_alg».proof.Proof.Gen.KernelIdeal
import proofs.«104600_j10608569221488_1_alg».proof.Proof.Gen.KernelIdeal.Skeleton
import proofs.«104600_j10608569221488_1_alg».proof.Proof.Gen.KernelIdeal.Launch
import proofs.«104600_j10608569221488_1_alg».proof.Proof.Gen.KernelIdeal.Points
import proofs.«104600_j10608569221488_1_alg».proof.Proof.Gen.KernelIdeal.Frame
import proofs.«104600_j10608569221488_1_alg».proof.Proof.Gen.ReferenceIdeal
import proofs.«104600_j10608569221488_1_alg».proof.Proof.Gen.ReferenceIdeal.Run
import proofs.«104600_j10608569221488_1_alg».proof.Proof.Gen.Pre_finite_inputs
import proofs.«104600_j10608569221488_1_alg».proof.Proof.Spec
import proofs.«104600_j10608569221488_1_alg».proof.Proof.KernelArray
import proofs.«104600_j10608569221488_1_alg».proof.Proof.RefRows
import Idealize.ShloMosaic.Adequacy
import Idealize.ShloMosaic.Init

noncomputable section

namespace Cert.Proof

open Idealize.ShloMosaic Idealize.SL.Sem Cert.LstmSpec

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs end with the row specification of those arguments in their two
    results: the kernel's with the reciprocal square root as a factor, the reference's with the quotient by the square root,
    which are one function. -/
theorem algebraic : Cert.algebraic_KernelIdeal_ReferenceIdeal := by
  intro m ρ m' ρ' _ hagree
  refine ⟨fun c => Cert.KernelIdeal.KArr.hArr m c, fun c => Cert.KernelIdeal.KArr.cArr m c,
    Cert.KernelIdeal.KArr.run_spec m ρ, ?_⟩
  refine (θ_run Cert.ReferenceIdeal.defs _ _).mono (fun _ h c => ⟨(h c).1.trans ?_, (h c).2.1.trans ?_, (h c).2.2⟩)
    (Cert.ReferenceIdeal.RefValue.run_spec m' ρ')
  · obtain ⟨a0, a1, a2, a3, a4, a5, a6, a7, a8, a9, a10⟩ := hagree c
    rw [a0, a1, a2, a3, a4, a5, a6, a7, a8, a9, a10, ← lnRsqrt_2048, ← lnRsqrt_512]
  · obtain ⟨a0, a1, a2, a3, a4, a5, a6, a7, a8, a9, a10⟩ := hagree c
    rw [a0, a1, a2, a3, a4, a5, a6, a7, a8, ← lnRsqrt_2048]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
